-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S8192 : Shape := ⟨1, ![8192]⟩
abbrev S15 : Shape := ⟨1, ![15]⟩
abbrev S2x262144 : Shape := ⟨2, ![2, 262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S15 : S_.BroadcastsInDim S15 (![] : Fin 0 → Fin S15.rank)
  reducesTo_S15_S_d0 : S15.ReducesTo [0] S_

variable [Facts]

def fn_part1 {F : FTy → Type} [FloatOps F] (main_v13 : IVec S_ 1) (main_v16 : IVec S15 1) : IVec S_ 1 :=
  let main_c_5 : IVec S_ 1 := constantI S_ 1 1#1
  let main_v17 : IVec S_ 1 := (fun x v => Host.reduce IntOp.andi x v reducesTo_S15_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S8192 .f32) (main_arg3 : FVec F S15 .f32) (main_arg4 : IVec S2x262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S15 .f32 := Host.absf main_arg3
  let main_cst_4 : FVec F S_ .f32 := constant S_ .f32 0x7F800000#32
  let main_v15 : FVec F S15 .f32 := broadcastInDim S15 ![] bcast_S_S15 main_cst_4
  let main_v16 : IVec S15 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S8192 : Shape := ⟨1, ![8192]⟩
abbrev S15 : Shape := ⟨1, ![15]⟩
abbrev S2x262144 : Shape := ⟨2, ![2, 262144]⟩
abbrev S_ : Shape := ⟨0, ![]⟩
abbrev S8192x1 : Shape := ⟨2, ![8192, 1]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 29
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192, .f32⟩
  | .hbm, ⟨3, _⟩ => ⟨S15, .f32⟩
  | .hbm, ⟨4, _⟩ => ⟨S2x262144, .i32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192, .f32⟩
  | .hbm, ⟨26, _⟩ => ⟨S8192x1, .f32⟩
  | .hbm, ⟨27, _⟩ => ⟨S8192x256, .f32⟩
  | .hbm, ⟨28, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x1024, .f32⟩
  | .local _ .vmem, ⟨10, _⟩ => ⟨S1024x1024, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  transposes_S1024x1024_p1_0_S1024x1024 : S1024x1024.Transposes [1, 0] S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  gather_S15_S8192x1_S8192_n_0_n_n_0_1_1_wf : GatherDims.WF S15 S8192x1 S8192 [] [0] [] [0] [] 1 ![1]
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)

variable [Facts₀]

def gather_S15_S8192x1_S8192_n_0_n_n_0_1_1 : GatherDims S15 S8192x1 S8192 where
  offsetDims := []
  collapsedSliceDims := [0]
  operandBatchingDims := []
  startIndicesBatchingDims := []
  startIndexMap := [0]
  indexVectorDim := 1
  sliceSizes := ![1]
  wf := gather_S15_S8192x1_S8192_n_0_n_n_0_1_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S8192 : Shape := ⟨1, ![8192]⟩
abbrev S15 : Shape := ⟨1, ![15]⟩
abbrev S2x262144 : Shape := ⟨2, ![2, 262144]⟩
abbrev S_ : Shape := ⟨0, ![]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192, .f32⟩
  | .hbm, ⟨3, _⟩ => ⟨S15, .f32⟩
  | .hbm, ⟨4, _⟩ => ⟨S2x262144, .i32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192, .f32⟩
  | .hbm, ⟨26, _⟩ => ⟨S8192x8192, .f32⟩
  | .hbm, ⟨27, _⟩ => ⟨S8192x256, .f32⟩
  | .hbm, ⟨28, _⟩ => ⟨S8192x1, .f32⟩
  | .hbm, ⟨29, _⟩ => ⟨S8192x256, .f32⟩
  | .hbm, ⟨30, _⟩ => ⟨S8192x256, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S8192x1_S8192x256_0_1 : S8192x1.BroadcastsInDim S8192x256 (![0, 1] : Fin 2 → Fin S8192x256.rank)
  gather_S15_S8192x1_S8192_n_0_n_n_0_1_1_wf : GatherDims.WF S15 S8192x1 S8192 [] [0] [] [0] [] 1 ![1]
  dot_S8192x8192_S8192x256_S8192x256_1_0_0_1_n_n_wf : DotDims.WF S8192x8192 S8192x256 S8192x256 [1] [0] [0] [1] [] []

variable [Facts₀]

def gather_S15_S8192x1_S8192_n_0_n_n_0_1_1 : GatherDims S15 S8192x1 S8192 where
  offsetDims := []
  collapsedSliceDims := [0]
  operandBatchingDims := []
  startIndicesBatchingDims := []
  startIndexMap := [0]
  indexVectorDim := 1
  sliceSizes := ![1]
  wf := gather_S15_S8192x1_S8192_n_0_n_n_0_1_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.R0Defs.lean ====
/-
  Region 0 (the first matrix product, scaled row by row): what the pipeline's proof data say.
  The grid is 8 × 8, point t = 8·mb + kb. At every point the body adds to a 1024 × 256 accumulator
  the product of the transposed 1024 × 1024 block (kb, mb) of U with the block kb of x; the
  accumulator starts from zero where kb = 0, and where kb = 7 it is multiplied row by row by the
  filter column's block mb and stored as block mb of the result.
  Everything here is stated at a parameter V: the buffers' contents when the region is entered.
-/
import proofs.«101562_j5755256177387_1_alg».proof.Proof.Gen.Kernel.Launch
import proofs.«101562_j5755256177387_1_alg».proof.Proof.Gen.Kernel.Skeleton
import proofs.«101562_j5755256177387_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks at their literal vector types. -/
abbrev ublk (c : Dev nD) (t : Fin cfg0.N) : Vec F S1024x1024 .f32 := iblk V c 0 t
abbrev xblk (c : Dev nD) (t : Fin cfg0.N) : Vec F S1024x256 .f32 := iblk V c 1 t
abbrev lblk (c : Dev nD) (t : Fin cfg0.N) : Vec F S1024x1 .f32 := iblk V c 2 t

/-- The accumulator after the body at position n: the point's product added to zero where
    n ≡ 0 (mod 8), to what the point before left elsewhere. -/
def acc (c : Dev nD) : (n : ℕ) → n < cfg0.N → Vec F S1024x256 .f32
  | 0, hn => k0_pay2 (ublk V c ⟨0, hn⟩) (xblk V c ⟨0, hn⟩) k0_pay1
  | n + 1, hn => k0_pay2 (ublk V c ⟨n + 1, hn⟩) (xblk V c ⟨n + 1, hn⟩)
      (if (n + 1) % 8 = 0 then k0_pay1 else acc c n (Nat.lt_of_succ_lt hn))

theorem acc_reset (c : Dev nD) (t : Fin cfg0.N) (h : t.val % 8 = 0) :
    acc V c t.val t.isLt = k0_pay2 (ublk V c t) (xblk V c t) k0_pay1 := by
  obtain ⟨n, hn⟩ := t
  cases n with
  | zero => rfl
  | succ n => exact congrArg (k0_pay2 _ _) (if_pos h)

theorem acc_step (c : Dev nD) (t : Fin cfg0.N) (h : ¬ t.val % 8 = 0) :
    acc V c t.val t.isLt = k0_pay2 (ublk V c t) (xblk V c t) (acc V c (t.val - 1) (Nat.lt_of_le_of_lt (Nat.sub_le _ _) t.isLt)) := by
  obtain ⟨n, hn⟩ := t
  cases n with
  | zero => exact absurd (Nat.zero_mod _) h
  | succ n => exact congrArg (k0_pay2 _ _) (if_neg h)

/-- What the body stores into the result's staging buffer where it stores at all (n ≡ 7 mod 8);
    at the other points the window is idle and this value is consulted by nothing. -/
def outAt (c : Dev nD) (t : Fin cfg0.N) : Vec F S1024x256 .f32 :=
  k0_pay3 (acc V c t.val t.isLt) (lblk V c t)

/-- The scratch operand as a memref. -/
abbrev scM : Memref sig .tc .vmem S1024x256 .f32 := Memref.whole cc0_scratch0

/-- The other pipeline's scoped buffers, which this region never touches, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch operand as a memref owned at some contents. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- The region invariant before position n: before the first point the class's; afterwards the
    accumulator at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM fullShare (acc V c n hn) ∗ others (F := F) c) ∗ (∃ r, prngReg c r))

/-- The proof data of pipeline 0 on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]

end Cert.Kernel.R0

end
-- ==== Proof.K.R0Runs.lean ====
/-
  Region 0: the kernel body run once per control case, on any whole memrefs, with what each buffer holds
  afterwards stated outright. The grid point fixes two conditions: whether the accumulator is first zeroed
  (position ≡ 0 mod 8) and whether the result block is stored at the end (position ≡ 7 mod 8). In every case
  the accumulator ends at itself (or zero) plus the product of the point's two blocks; the result's buffer is
  touched only in the last case.
-/
import proofs.«101562_j5755256177387_1_alg».proof.Proof.K.R0Defs
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition (the accumulator is zeroed), from the grid coordinates. -/
abbrev condZ (i : grid0.Coords) : Prop := (Scalar.cmpi .ne (Scalar.extui (Scalar.cmpi .eq (BitVec.ofNat 32 (i 1).val) 0#32)) 0#32) = 1#1
/-- It holds where the position is ≡ 0 (mod 8). -/
theorem hcondZ : ∀ t : Fin cfg0.N, condZ (grid0.coords t) ↔ t.val % 8 = 0 :=
  (by decide +kernel : ∀ t : Fin grid0.N, condZ (grid0.coords t) ↔ t.val % 8 = 0)

/-- The second branch's condition (the result block is stored), from the grid coordinates. -/
abbrev condS (i : grid0.Coords) : Prop := k0_cond2 i = 1#1
/-- It holds where the position is ≡ 7 (mod 8). -/
theorem hcondS : ∀ t : Fin cfg0.N, condS (grid0.coords t) ↔ t.val % 8 = 7 :=
  (by decide +kernel : ∀ t : Fin grid0.N, condS (grid0.coords t) ↔ t.val % 8 = 7)

/-- The whole-block rectangles sit at offset zero. -/
theorem hz256 : (![0, 0] : Fin S1024x256.rank → Nat) = fun _ => 0 := funext fun a => by fin_cases a <;> rfl
theorem hz1024 : (![0, 0] : Fin S1024x1024.rank → Nat) = fun _ => 0 := funext fun a => by fin_cases a <;> rfl
theorem hz1 : (![0, 0] : Fin S1024x1.rank → Nat) = fun _ => 0 := funext fun a => by fin_cases a <;> rfl

set_option maxHeartbeats 1000000 in
/-- At the start of a row (first branch taken, second not) the body stores zeros over whatever the accumulator
    held, then reads the two blocks and stores zero plus their product. -/
theorem run_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : condZ i) (hc1 : ¬condS i)
    (u : Vec F S1024x1024 .f32) (x : Vec F S1024x256 .f32) (l : Vec F S1024x1 .f32) (o : Vec F S1024x256 .f32)
    (E : Set ℕ) (K : PUnit → sProp 𝕄) :
    iprop(owns (c : Thread nD τ) arg2 fullShare u ∗ owns (c : Thread nD τ) arg3 fullShare x ∗ owns (c : Thread nD τ) arg4 fullShare l
        ∗ owns (c : Thread nD τ) arg5 fullShare o ∗ (∃ d, owns (c : Thread nD τ) arg6 fullShare d)
        ∗ (iprop(owns (c : Thread nD τ) arg2 fullShare u ∗ owns (c : Thread nD τ) arg3 fullShare x ∗ owns (c : Thread nD τ) arg4 fullShare l
            ∗ owns (c : Thread nD τ) arg5 fullShare o ∗ owns (c : Thread nD τ) arg6 fullShare (k0_pay2 u x k0_pay1)) -∗ K ⟨⟩))
      ⊢ wp frame (wpE (defs₀ (F := F)) Variants.none c none) E (cc0__stageA_kernel i arg2 harg2 arg3 harg3 arg4 harg4 arg5 harg5 arg6 harg6) K := by
  simp only [cc0__stageA_kernel_eq_skeleton]; unfold cc0__stageA_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [View.read_writes_eq_canon _ _ _ (View.cover_of_tiled [⟨_, _⟩, ⟨_, _⟩] S1024x256.size (by rfl))]
  rw [View.canon_cons_unit_zero (S := S1024x256) hz256, View.readCov_unit_zero (S := S1024x256) _ hz256]
  simp only [View.readAt_eq_ld, hf2, hf3, View.ld_unit_zero (S := S1024x1024) hz1024, View.ld_unit_zero (S := S1024x256) hz256]

set_option maxHeartbeats 1000000 in
/-- Between the ends of a row of the grid (neither branch taken) the body reads the two blocks and the
    accumulator and stores the accumulator plus the blocks' product; every other buffer is handed back as found. -/
theorem run_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬condZ i) (hc1 : ¬condS i)
    (u : Vec F S1024x1024 .f32) (x : Vec F S1024x256 .f32) (l : Vec F S1024x1 .f32) (o : Vec F S1024x256 .f32) (s : Vec F S1024x256 .f32)
    (E : Set ℕ) (K : PUnit → sProp 𝕄) :
    iprop(owns (c : Thread nD τ) arg2 fullShare u ∗ owns (c : Thread nD τ) arg3 fullShare x ∗ owns (c : Thread nD τ) arg4 fullShare l
        ∗ owns (c : Thread nD τ) arg5 fullShare o ∗ owns (c : Thread nD τ) arg6 fullShare s
        ∗ (iprop(owns (c : Thread nD τ) arg2 fullShare u ∗ owns (c : Thread nD τ) arg3 fullShare x ∗ owns (c : Thread nD τ) arg4 fullShare l
            ∗ owns (c : Thread nD τ) arg5 fullShare o ∗ owns (c : Thread nD τ) arg6 fullShare (k0_pay2 u x s)) -∗ K ⟨⟩))
      ⊢ wp frame (wpE (defs₀ (F := F)) Variants.none c none) E (cc0__stageA_kernel i arg2 harg2 arg3 harg3 arg4 harg4 arg5 harg5 arg6 harg6) K := by
  simp only [cc0__stageA_kernel_eq_skeleton]; unfold cc0__stageA_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (View.cover_of_tiled [⟨_, _⟩] S1024x256.size (by rfl)), View.canon_unit_zero hz256]
  simp only [View.readAt_eq_ld, hf2, hf3, View.ld_unit_zero (S := S1024x1024) hz1024, View.ld_unit_zero (S := S1024x256) hz256, hf6]

set_option maxHeartbeats 1000000 in
/-- At the end of a row (second branch taken, first not) the body accumulates as in between, then reads the
    accumulator back and the filter column's block and stores their row-by-row product into the result's buffer,
    whatever that held. -/
theorem run_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬condZ i) (hc1 : condS i)
    (u : Vec F S1024x1024 .f32) (x : Vec F S1024x256 .f32) (l : Vec F S1024x1 .f32) (s : Vec F S1024x256 .f32)
    (E : Set ℕ) (K : PUnit → sProp 𝕄) :
    iprop(owns (c : Thread nD τ) arg2 fullShare u ∗ owns (c : Thread nD τ) arg3 fullShare x ∗ owns (c : Thread nD τ) arg4 fullShare l
        ∗ (∃ d, owns (c : Thread nD τ) arg5 fullShare d) ∗ owns (c : Thread nD τ) arg6 fullShare s
        ∗ (iprop(owns (c : Thread nD τ) arg2 fullShare u ∗ owns (c : Thread nD τ) arg3 fullShare x ∗ owns (c : Thread nD τ) arg4 fullShare l
            ∗ owns (c : Thread nD τ) arg5 fullShare (k0_pay3 (k0_pay2 u x s) l) ∗ owns (c : Thread nD τ) arg6 fullShare (k0_pay2 u x s)) -∗ K ⟨⟩))
      ⊢ wp frame (wpE (defs₀ (F := F)) Variants.none c none) E (cc0__stageA_kernel i arg2 harg2 arg3 harg3 arg4 harg4 arg5 harg5 arg6 harg6) K := by
  simp only [cc0__stageA_kernel_eq_skeleton]; unfold cc0__stageA_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.read_writes_eq_canon _ _ _ (View.cover_of_tiled [⟨_, _⟩] S1024x256.size (by rfl)), View.canon_unit_zero hz256]
    rw [View.readCov_unit_zero (S := S1024x256) _ hz256]
    simp only [View.readAt_eq_ld, hf2, hf3, View.ld_unit_zero (S := S1024x1024) hz1024, View.ld_unit_zero (S := S1024x256) hz256, hf4, hf6, View.ld_unit_zero (S := S1024x1) hz1]
  iexists _; isplitr
  swap; · iexact H6
  ipureintro
  sl_unfold_words
  rw [View.read_writes_eq_canon _ _ _ (View.cover_of_tiled [⟨_, _⟩] S1024x256.size (by rfl)), View.canon_unit_zero hz256]
  simp only [View.readAt_eq_ld, hf2, hf3, View.ld_unit_zero (S := S1024x1024) hz1024, View.ld_unit_zero (S := S1024x256) hz256, hf6]

end Cert.Kernel.R0

end
-- ==== Proof.K.R0.lean ====
/-
  Region 0: the body obligation of its pipeline against the proof data of R0Defs, and the
  invariant's two ends.
-/
import proofs.«101562_j5755256177387_1_alg».proof.Proof.K.R0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

/-- The three inputs are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Where the result block is not stored, the result's window is idle and is not written back; -/
theorem idle_3 : ∀ t : Fin cfg0.N, ¬condS (grid0.coords t) → cfg0.idle 3 (grid0.coords t) = true := by decide +kernel
theorem noFlush_3 : ∀ t : Fin cfg0.N, ¬condS (grid0.coords t) → (cfg0.win 3).flush t = false := by decide +kernel
/-- where it is stored, the window is live. -/
theorem live_3 : ∀ t : Fin cfg0.N, condS (grid0.coords t) → cfg0.idle 3 (grid0.coords t) = false := by decide +kernel

/-! ## The staging memrefs at a point, as the pipeline passes them -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)

/-! ## The inputs' buffers hold their blocks at every point

An input is uncut and never idle, the body leaves it as found, and where it is not fetched its block index has
not moved since the fetch: so its current buffer holds the point's block, fetched there or not. -/

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The invariant, position by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (acc V c n hn) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare (acc V c (n - 1) (by omega)) ∗ others (F := F) c) ∗ (∃ r, prngReg c r)) := by
  cases n with
  | zero => exact absurd rfl hz
  | succ n => rfl

theorem PhiS_castSucc (c : Dev nD) (t : Fin cfg0.N) :
    (dat V c).Φ t.castSucc = PhiS V c t.val (Nat.le_of_lt t.isLt) := by
  dsimp only [dat]; simp only [Fin.coe_castSucc]

/-! ## The body at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold the point's blocks; the position modulo 8 says which of the
    three cases the point is in. At the start of a row the accumulator is handed over at whatever it holds and
    comes back at zero plus the product; elsewhere it is handed over at what the point before left and comes back
    with the product added, which is the recursion defining acc. The result's buffer is idle except at the end of a
    row, where it receives the accumulator scaled row by row by the filter column's block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 64 := lt_of_lt_of_eq t.isLt (show cfg0.N = 64 from N_0)
  by_cases h0 : t.val % 8 = 0
  · have h1 : ¬t.val % 8 = 7 := by omega
    have hc0 : condZ (grid0.coords t) := (hcondZ t).mpr h0
    have hc1 : ¬condS (grid0.coords t) := fun h => h1 ((hcondS t).mp h)
    rw [Dat.leavesExact_idle (dat V c) 3 t (idle_3 t hc1) (noFlush_3 t hc1)]
    rw [acc_reset V c t h0]
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply (run_A c (grid0.coords t) _ (hs0 t) _ (hs1 t) _ (hs2 t) _ (hs3 t) _ (Memref.isWhole_whole _) hc0 hc1 (ublk V c t) (xblk V c t) (lblk V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_A c (grid0.coords t) _ (hs0 t) _ (hs1 t) _ (hs2 t) _ (hs3 t) _ (Memref.isWhole_whole _) hc0 hc1 (ublk V c t) (xblk V c t) (lblk V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬condZ (grid0.coords t) := fun h => h0 ((hcondZ t).mp h)
    by_cases h1 : t.val % 8 = 7
    · have hc1 : condS (grid0.coords t) := (hcondS t).mpr h1
      rw [show (dat V c).leavesExact 3 t = owns (c : Thread nD τ) (ms3 t) fullShare ((dat V c).after 3 t) from by
        unfold Dat.leavesExact; rw [live_3 t hc1], after_3]
      unfold outAt
      rw [acc_step V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_C c (grid0.coords t) _ (hs0 t) _ (hs1 t) _ (hs2 t) _ (hs3 t) _ (Memref.isWhole_whole _) hc0 hc1 (ublk V c t) (xblk V c t) (lblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬condS (grid0.coords t) := fun h => h1 ((hcondS t).mp h)
      rw [Dat.leavesExact_idle (dat V c) 3 t (idle_3 t hc1) (noFlush_3 t hc1)]
      rw [acc_step V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_B c (grid0.coords t) _ (hs0 t) _ (hs1 t) _ (hs2 t) _ (hs3 t) _ (Memref.isWhole_whole _) hc0 hc1 (ublk V c t) (xblk V c t) (lblk V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg0.N) ⊢ Pipeline.ΦA spec0 c := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hoth⟩, Hg⟩
  isplitl [HS Hoth]
  · isplitl [HS]; · iexists _; iexact HS
    iexact Hoth
  iexact Hg

end Cert.Kernel.R0

end
-- ==== Proof.K.R1Defs.lean ====
/-
  Region 1 (the second matrix product): what the pipeline's proof data say.
  The grid is 8 × 8, point t = 8·mb + kb. At every point the body adds to a 1024 × 256 accumulator
  the product of the 1024 × 1024 block (mb, kb) of U with the block kb of the first region's result;
  the accumulator starts from zero where kb = 0, and where kb = 7 it is stored as block mb of the result.
  Everything here is stated at a parameter V: the buffers' contents when the region is entered.
-/
import proofs.«101562_j5755256177387_1_alg».proof.Proof.Gen.Kernel.Launch
import proofs.«101562_j5755256177387_1_alg».proof.Proof.Gen.Kernel.Skeleton
import proofs.«101562_j5755256177387_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks at their literal vector types. -/
abbrev ublk (c : Dev nD) (t : Fin cfg1.N) : Vec F S1024x1024 .f32 := iblk V c 0 t
abbrev sblk (c : Dev nD) (t : Fin cfg1.N) : Vec F S1024x256 .f32 := iblk V c 1 t

/-- The accumulator after the body at position n: the point's product added to zero where
    n ≡ 0 (mod 8), to what the point before left elsewhere. -/
def acc (c : Dev nD) : (n : ℕ) → n < cfg1.N → Vec F S1024x256 .f32
  | 0, hn => k1_pay2 (ublk V c ⟨0, hn⟩) (sblk V c ⟨0, hn⟩) k1_pay1
  | n + 1, hn => k1_pay2 (ublk V c ⟨n + 1, hn⟩) (sblk V c ⟨n + 1, hn⟩)
      (if (n + 1) % 8 = 0 then k1_pay1 else acc c n (Nat.lt_of_succ_lt hn))

theorem acc_reset (c : Dev nD) (t : Fin cfg1.N) (h : t.val % 8 = 0) :
    acc V c t.val t.isLt = k1_pay2 (ublk V c t) (sblk V c t) k1_pay1 := by
  obtain ⟨n, hn⟩ := t
  cases n with
  | zero => rfl
  | succ n => exact congrArg (k1_pay2 _ _) (if_pos h)

theorem acc_step (c : Dev nD) (t : Fin cfg1.N) (h : ¬ t.val % 8 = 0) :
    acc V c t.val t.isLt = k1_pay2 (ublk V c t) (sblk V c t) (acc V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-- What the body stores into the result's staging buffer where it stores at all (n ≡ 7 mod 8): the
    accumulator; at the other points the window is idle and this value is consulted by nothing. -/
def outAt (c : Dev nD) (t : Fin cfg1.N) : Vec F S1024x256 .f32 := acc V c t.val t.isLt

/-- The scratch operand as a memref. -/
abbrev scM : Memref sig .tc .vmem S1024x256 .f32 := Memref.whole cc1_scratch0

/-- The other pipeline's scoped buffers, which this region never touches, each whole at some contents,
    and then X (the scratch operand, stated by the caller). -/
def othersThen (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The class invariant with the scratch operand as a memref owned at some contents. -/
theorem PhiA_eq (c : Dev nD) :
    (Pipeline.ΦA spec1 c : sProp 𝕄)
      = iprop(othersThen (F := F) c iprop(∃ d, owns (c : Thread nD τ) scM fullShare d) ∗ (∃ r, prngReg c r)) := by
  unfold Pipeline.ΦA othersThen; rw [scopedRest1_eq]; simp only [scM, owns_whole]; try rfl

/-- The region invariant before position n: before the first point the class's; afterwards the
    accumulator at what the point before left, the other scoped buffers at anything, the generator
    register at some state. -/
def PhiS (c : Dev nD) : (n : ℕ) → n ≤ cfg1.N → sProp 𝕄
  | 0, _ => Pipeline.ΦA spec1 c
  | n + 1, hn => iprop(othersThen (F := F) c (owns (c : Thread nD τ) scM fullShare (acc V c n hn)) ∗ (∃ r, prngReg c r))

/-- The proof data of pipeline 1 on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outAt V c t := by dsimp only [dat]

end Cert.Kernel.R1

end
-- ==== Proof.K.R1Runs.lean ====
/-
  Region 1: the kernel body's run in each of its three control cases (kb = 0, 0 < kb < 7, kb = 7), on
  whole memrefs at named contents, and what the runs are stated over: the two branch conditions in closed
  form over the grid, and where the result's window is idle.
-/
import proofs.«101562_j5755256177387_1_alg».proof.Proof.K.R1Defs
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-block rectangle are zero. -/
theorem hz : (![0, 0] : Fin 2 → Nat) = fun _ => 0 := funext fun a => by fin_cases a <;> rfl

/-! ## The body's two branch conditions, over the grid coordinates -/

/-- The first conditional's condition (the reduction index is 0), as the skeleton spells it. -/
abbrev condA (i : grid1.Coords) : Prop := (Scalar.cmpi .ne (Scalar.extui (Scalar.cmpi .eq (BitVec.ofNat 32 (i 1).val) 0#32)) 0#32) = 1#1
/-- The second conditional's condition (the reduction index is 7). -/
abbrev condC (i : grid1.Coords) : Prop := k1_cond2 i = 1#1

/-- At point t = 8·mb + kb the first holds exactly where kb = 0: decided over the 64 points. -/
theorem hcondA : ∀ t : Fin cfg1.N, condA (grid1.coords t) ↔ t.val % 8 = 0 :=
  (by decide +kernel : ∀ t : Fin grid1.N, condA (grid1.coords t) ↔ t.val % 8 = 0)
/-- and the second exactly where kb = 7. -/
theorem hcondC : ∀ t : Fin cfg1.N, condC (grid1.coords t) ↔ t.val % 8 = 7 :=
  (by decide +kernel : ∀ t : Fin grid1.N, condC (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- The result's window is idle away from kb = 7, -/
theorem idle1_2 : ∀ t : Fin cfg1.N, ¬ t.val % 8 = 7 → cfg1.idle 2 (grid1.coords t) = true := by decide +kernel
/-- live at kb = 7, -/
theorem live1_2 : ∀ t : Fin cfg1.N, t.val % 8 = 7 → cfg1.idle 2 (grid1.coords t) = false := by decide +kernel
/-- and not written back away from kb = 7. -/
theorem noFlush1_2 (t : Fin cfg1.N) (h : ¬ t.val % 8 = 7) : (cfg1.win 2).flush t = false := by
  cases hf : (cfg1.win 2).flush t with
  | false => rfl
  | true => exact absurd ((flush1_2 t).mp hf) h

/-! ## The body's run, case by case -/

set_option maxHeartbeats 1000000 in
/-- CASE B (0 < kb < 7). On whole memrefs — the two inputs at u and x, the result's buffer at o, the
    accumulator at s — the body runs to the continuation with the inputs and the result's buffer as they
    were and the accumulator at s plus the product of u and x: its one whole-block store's payload,
    whose loads read the whole buffers. -/
theorem run_B (c : Dev nD) (i : grid1.Coords)
    (arg2 : Memref sig .tc .vmem S1024x1024 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (hc0 : ¬condA i) (hc1 : ¬condC i)
    (u : Vec F S1024x1024 .f32) (x o s : Vec F S1024x256 .f32) (E : Set ℕ) (K : PUnit → sProp 𝕄) :
    iprop(owns (c : Thread nD τ) arg2 fullShare u ∗ owns (c : Thread nD τ) arg3 fullShare x
        ∗ owns (c : Thread nD τ) arg4 fullShare o ∗ owns (c : Thread nD τ) arg5 fullShare s
        ∗ (iprop(owns (c : Thread nD τ) arg2 fullShare u ∗ owns (c : Thread nD τ) arg3 fullShare x
            ∗ owns (c : Thread nD τ) arg4 fullShare o ∗ owns (c : Thread nD τ) arg5 fullShare (k1_pay2 u x s)) -∗ K ⟨⟩))
      ⊢ wp frame (wpE (defs₀ (F := F)) Variants.none c none) E (cc1__stageB_kernel i arg2 harg2 arg3 harg3 arg4 harg4 arg5 harg5) K := by
  simp only [cc1__stageB_kernel_eq_skeleton]; unfold cc1__stageB_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.mem_singleton_self _, View.mem_set_unit_zero hz inb_S1024x256_S1024x256_0_0 y⟩), View.canon_unit_zero hz]
  simp only [View.readAt_eq_ld, harg2.read_unread, harg3.read_unread, harg5.read_unread, View.ld_unit_zero (S := S1024x1024) hz, View.ld_unit_zero (S := S1024x256) hz]

set_option maxHeartbeats 1000000 in
/-- CASE A (kb = 0). The accumulator enters at anything; the body stores the zero block over it, reads it
    back and leaves the zero block plus the product of u and x. -/
theorem run_A (c : Dev nD) (i : grid1.Coords)
    (arg2 : Memref sig .tc .vmem S1024x1024 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (hc0 : condA i) (hc1 : ¬condC i)
    (u : Vec F S1024x1024 .f32) (x o : Vec F S1024x256 .f32) (E : Set ℕ) (K : PUnit → sProp 𝕄) :
    iprop(owns (c : Thread nD τ) arg2 fullShare u ∗ owns (c : Thread nD τ) arg3 fullShare x
        ∗ owns (c : Thread nD τ) arg4 fullShare o ∗ (∃ d, owns (c : Thread nD τ) arg5 fullShare d)
        ∗ (iprop(owns (c : Thread nD τ) arg2 fullShare u ∗ owns (c : Thread nD τ) arg3 fullShare x
            ∗ owns (c : Thread nD τ) arg4 fullShare o ∗ owns (c : Thread nD τ) arg5 fullShare (k1_pay2 u x k1_pay1)) -∗ K ⟨⟩))
      ⊢ wp frame (wpE (defs₀ (F := F)) Variants.none c none) E (cc1__stageB_kernel i arg2 harg2 arg3 harg3 arg4 harg4 arg5 harg5) K := by
  simp only [cc1__stageB_kernel_eq_skeleton]; unfold cc1__stageB_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self, View.mem_set_unit_zero hz inb_S1024x256_S1024x256_0_0 y⟩),
    View.canon_cons_unit_zero (S := S1024x256) hz, View.readCov_unit_zero (S := S1024x256) _ hz]
  simp only [View.readAt_eq_ld, harg2.read_unread, harg3.read_unread, View.ld_unit_zero (S := S1024x1024) hz, View.ld_unit_zero (S := S1024x256) hz]

set_option maxHeartbeats 1000000 in
/-- CASE C (kb = 7). As case B for the accumulator; then the accumulator is read back and stored whole over
    the result's buffer, which enters at anything. -/
theorem run_C (c : Dev nD) (i : grid1.Coords)
    (arg2 : Memref sig .tc .vmem S1024x1024 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (hc0 : ¬condA i) (hc1 : condC i)
    (u : Vec F S1024x1024 .f32) (x s : Vec F S1024x256 .f32) (E : Set ℕ) (K : PUnit → sProp 𝕄) :
    iprop(owns (c : Thread nD τ) arg2 fullShare u ∗ owns (c : Thread nD τ) arg3 fullShare x
        ∗ (∃ d, owns (c : Thread nD τ) arg4 fullShare d) ∗ owns (c : Thread nD τ) arg5 fullShare s
        ∗ (iprop(owns (c : Thread nD τ) arg2 fullShare u ∗ owns (c : Thread nD τ) arg3 fullShare x
            ∗ owns (c : Thread nD τ) arg4 fullShare (k1_pay2 u x s) ∗ owns (c : Thread nD τ) arg5 fullShare (k1_pay2 u x s)) -∗ K ⟨⟩))
      ⊢ wp frame (wpE (defs₀ (F := F)) Variants.none c none) E (cc1__stageB_kernel i arg2 harg2 arg3 harg3 arg4 harg4 arg5 harg5) K := by
  simp only [cc1__stageB_kernel_eq_skeleton]; unfold cc1__stageB_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero hz inb_S1024x256_S1024x256_0_0 y⟩),
      View.canon_unit_zero hz, View.readCov_unit_zero (S := S1024x256) _ hz]
    simp only [View.readAt_eq_ld, harg2.read_unread, harg3.read_unread, harg5.read_unread, View.ld_unit_zero (S := S1024x1024) hz, View.ld_unit_zero (S := S1024x256) hz]
  iexists _; isplitr
  swap; · iexact HS
  ipureintro
  sl_unfold_words
  rw [View.read_writes_eq_canon _ _ _ (fun y => ⟨_, List.mem_singleton_self _, View.mem_set_unit_zero hz inb_S1024x256_S1024x256_0_0 y⟩), View.canon_unit_zero hz]
  simp only [View.readAt_eq_ld, harg2.read_unread, harg3.read_unread, harg5.read_unread, View.ld_unit_zero (S := S1024x1024) hz, View.ld_unit_zero (S := S1024x256) hz]

end Cert.Kernel.R1

end
-- ==== Proof.K.R1.lean ====
/-
  Region 1: the body obligation of its pipeline against the proof data of R1Defs, and the
  invariant's two ends.
-/
import proofs.«101562_j5755256177387_1_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs the body is called with -/

/-- Each window's current staging memref at point t, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)

/-! ## The inputs' buffers -/

/-- Both inputs are fetched at every point, so the body finds each one's block in its current buffer. -/
theorem before_0 (c : Dev nD) (t : Fin cfg1.N) (d) : (dat V c).before 0 t d = iblk V c 0 t :=
  ((dat V c).before_fetched 0 t (fetch1_0 t) d).trans (by unfold Dat.fetched Dat.blockOf iblk; rw [A_eq]; try rfl)
theorem before_1 (c : Dev nD) (t : Fin cfg1.N) (d) : (dat V c).before 1 t d = iblk V c 1 t :=
  ((dat V c).before_fetched 1 t (fetch1_1 t) d).trans (by unfold Dat.fetched Dat.blockOf iblk; rw [A_eq]; try rfl)

/-- and leaves it there. -/
theorem leaves_0 (c : Dev nD) (t : Fin cfg1.N) :
    (dat V c).leavesExact 0 t = owns (c : Thread nD τ) (ms1_0 t) fullShare (ublk V c t) := by
  unfold Dat.leavesExact; rw [live1_0 t, after_0]
theorem leaves_1 (c : Dev nD) (t : Fin cfg1.N) :
    (dat V c).leavesExact 1 t = owns (c : Thread nD τ) (ms1_1 t) fullShare (sblk V c t) := by
  unfold Dat.leavesExact; rw [live1_1 t, after_1]
/-- Where kb = 7 the result's buffer is left at the accumulator. -/
theorem leaves_2 (c : Dev nD) (t : Fin cfg1.N) (h7 : t.val % 8 = 7) :
    (dat V c).leavesExact 2 t = owns (c : Thread nD τ) (ms1_2 t) fullShare (acc V c t.val t.isLt) := by
  unfold Dat.leavesExact; rw [live1_2 t h7, after_2]; rfl

/-! ## The invariant, position by position -/

theorem PhiS_zero (c : Dev nD) (n : ℕ) (h : n ≤ cfg1.N) (hz : n = 0) : PhiS V c n h = Pipeline.ΦA spec1 c := by
  subst hz; rfl

/-- After point n: the accumulator at that point's contents. -/
theorem PhiS_succ (c : Dev nD) (n : ℕ) (hn : n < cfg1.N) :
    PhiS V c (n + 1) hn = iprop(othersThen (F := F) c (owns (c : Thread nD τ) scM fullShare (acc V c n hn)) ∗ (∃ r, prngReg c r)) := rfl

/-- Before a point that is not the first: the accumulator at what the point before left. -/
theorem PhiS_pos (c : Dev nD) (n : ℕ) (h : n ≤ cfg1.N) (hz : n ≠ 0) :
    PhiS V c n h = iprop(othersThen (F := F) c (owns (c : Thread nD τ) scM fullShare (acc V c (n - 1) (by omega))) ∗ (∃ r, prngReg c r)) := by
  cases n with
  | zero => exact absurd rfl hz
  | succ n => rfl

/-- The scratch operand is taken out of the scoped rest and another statement of it put back. -/
theorem othersThen_swap (c : Dev nD) (X Y : sProp 𝕄) :
    othersThen (F := F) c X ⊢ iprop(X ∗ (Y -∗ othersThen (F := F) c Y)) := by
  unfold othersThen
  iintro ⟨O1, O2, O3, O4, O5, O6, O7, O8, O9, HX⟩
  isplitl [HX]; · iexact HX
  iintro HY
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  iexact HY

/-- Forgetting the accumulator's contents: at every position the invariant gives the scratch operand at
    some contents. -/
theorem PhiS_forget (c : Dev nD) (n : ℕ) (h : n ≤ cfg1.N) :
    PhiS V c n h ⊢ iprop(othersThen (F := F) c iprop(∃ d, owns (c : Thread nD τ) scM fullShare d) ∗ (∃ r, prngReg c r)) := by
  by_cases hz : n = 0
  · rw [PhiS_zero V c n h hz, PhiA_eq]
  · rw [PhiS_pos V c n h hz]
    iintro ⟨HO, Hg⟩
    isplitl [HO]
    · ihave ⟨HS, Hb⟩ := (othersThen_swap (F := F) c _ iprop(∃ d, owns (c : Thread nD τ) scM fullShare d)) $$ HO
      iapply Hb
      iexists _; iexact HS
    iexact Hg

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The inputs' buffers hold their blocks; t mod 8 says which case the point is in.
    Where kb = 0 the accumulator's contents are forgotten and the run leaves the zero block plus the
    point's product (acc_reset); elsewhere the invariant hands the accumulator at what the point before
    left and the run adds the point's product to it (acc_step). Away from kb = 7 the result's buffer goes
    back as it came (the window is idle there and not written back); at kb = 7 it is left at the
    accumulator. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).Φ t.castSucc = PhiS V c t.val (Nat.le_of_lt t.isLt) from rfl]
  rw [leaves_0, leaves_1]
  have hN : t.val < 64 := lt_of_lt_of_eq t.isLt (show cfg1.N = 64 from N_1)
  by_cases h0 : t.val % 8 = 0
  · have h7 : ¬ t.val % 8 = 7 := by omega
    rw [Dat.leavesExact_idle (dat V c) 2 t (idle1_2 t h7) (noFlush1_2 t h7), acc_reset V c t h0]
    iintro ⟨HΦ, Ho, ⟨%d0, H0⟩, ⟨%d1, H1⟩, ⟨%d2, H2⟩⟩
    ihave ⟨HO, Hg⟩ := (PhiS_forget V c t.val (Nat.le_of_lt t.isLt)) $$ HΦ
    ihave ⟨HS, Hb⟩ := (othersThen_swap (F := F) c _ (owns (c : Thread nD τ) scM fullShare (k1_pay2 (ublk V c t) (sblk V c t) k1_pay1))) $$ HO
    iapply (run_A c (grid1.coords t) _ (hs1_0 t) _ (hs1_1 t) _ (hs1_2 t) scM (Memref.isWhole_whole _) ((hcondA t).mpr h0) (fun h => h7 ((hcondC t).mp h)) (ublk V c t) (sblk V c t) ((dat V c).before 2 t d2) Set.univ _)
    isplitl [H0]; · iexact H0
    isplitl [H1]; · iexact H1
    isplitl [H2]; · iexact H2
    isplitl [HS]; · iexact HS
    iintro ⟨H0, H1, H2, HS⟩
    isplitl [HS Hb Hg]
    · isplitl [HS Hb]
      · iapply Hb; iexact HS
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz, acc_step V c t h0]
    by_cases h7 : t.val % 8 = 7
    · rw [leaves_2 V c t h7, acc_step V c t h0]
      iintro ⟨⟨HO, Hg⟩, Ho, ⟨%d0, H0⟩, ⟨%d1, H1⟩, ⟨%d2, H2⟩⟩
      ihave ⟨HS, Hb⟩ := (othersThen_swap (F := F) c _ (owns (c : Thread nD τ) scM fullShare (k1_pay2 (ublk V c t) (sblk V c t) (acc V c (t.val - 1) (Nat.lt_of_le_of_lt (Nat.sub_le _ _) t.isLt))))) $$ HO
      iapply (run_C c (grid1.coords t) _ (hs1_0 t) _ (hs1_1 t) _ (hs1_2 t) scM (Memref.isWhole_whole _) (fun h => h0 ((hcondA t).mp h)) ((hcondC t).mpr h7) (ublk V c t) (sblk V c t) (acc V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hb Hg]
      · isplitl [HS Hb]
        · iapply Hb; iexact HS
        iexact Hg
      isplitl [Ho]; · iexact Ho
      isplitl [H0]; · iexact H0
      isplitl [H1]; · iexact H1
      iexact H2
    · rw [Dat.leavesExact_idle (dat V c) 2 t (idle1_2 t h7) (noFlush1_2 t h7)]
      iintro ⟨⟨HO, Hg⟩, Ho, ⟨%d0, H0⟩, ⟨%d1, H1⟩, ⟨%d2, H2⟩⟩
      ihave ⟨HS, Hb⟩ := (othersThen_swap (F := F) c _ (owns (c : Thread nD τ) scM fullShare (k1_pay2 (ublk V c t) (sblk V c t) (acc V c (t.val - 1) (Nat.lt_of_le_of_lt (Nat.sub_le _ _) t.isLt))))) $$ HO
      iapply (run_B c (grid1.coords t) _ (hs1_0 t) _ (hs1_1 t) _ (hs1_2 t) scM (Memref.isWhole_whole _) (fun h => h0 ((hcondA t).mp h)) (fun h => h7 ((hcondC t).mp h)) (ublk V c t) (sblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hb Hg]
      · isplitl [HS Hb]
        · iapply Hb; iexact HS
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After the last point the invariant gives the class's back: the accumulator's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_forget V c _ _

end Cert.Kernel.R1

end
-- ==== Proof.K.Vals.lean ====
/-
  The buffers' contents between the items of the program, as a fold from the launch memory:
  three stretches of host operations, then the two regions, each region leaving its arrays at what
  its write-backs make of them and every other buffer as it found it.
-/
import proofs.«101562_j5755256177387_1_alg».proof.Proof.K.R0Defs
import proofs.«101562_j5755256177387_1_alg».proof.Proof.K.R1Defs
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core c's buffers at launch. -/
abbrev W0 : Dev nD → Valuation τ sig (Elt F) := fun c b => m ((c : Dev nD), b)
/-- After the first stretch of host operations. -/
abbrev W1 : Dev nD → Valuation τ sig (Elt F) := fun c => StableHlo.after hostOps0 (W0 m c)
/-- After the clamp. -/
abbrev W2 : Dev nD → Valuation τ sig (Elt F) := fun c => StableHlo.after hostOps0_1 (W1 m c)
/-- After the third stretch: the first region's entry. -/
abbrev W3 : Dev nD → Valuation τ sig (Elt F) := fun c => StableHlo.after hostOps0_2 (W2 m c)
/-- The same read at the TensorCore's references. -/
abbrev V3 : (c : Dev nD) → (b : Ref sig .tc) → Buf (Elt F) ((c : Thread nD τ).loc b) := fun c b => W3 m c b
/-- At the first region's exit. -/
def W4 (c : Dev nD) : Valuation τ sig (Elt F) :=
  Pipeline.withArrays spec0 c (W3 m c) fun w => (R0.dat (V3 m) c).arrAt w cfg0.N
theorem W4_arr (c : Dev nD) (w : Fin cfg0.W) :
    W4 m c (Proc.devRef .tc (Pipeline.arrRef spec0 w)) = (R0.dat (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references: the second region's entry. -/
abbrev V4 : (c : Dev nD) → (b : Ref sig .tc) → Buf (Elt F) ((c : Thread nD τ).loc b) := fun c b => W4 m c b
theorem hF0 (c : Dev nD) (w : Fin cfg0.W) : (R0.dat (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- At the second region's exit. -/
def W5 (c : Dev nD) : Valuation τ sig (Elt F) :=
  Pipeline.withArrays spec1 c (W4 m c) fun w => (R1.dat (V4 m) c).arrAt w cfg1.N
theorem W5_arr (c : Dev nD) (w : Fin cfg1.W) :
    W5 m c (Proc.devRef .tc (Pipeline.arrRef spec1 w)) = (R1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (R1.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

end Cert.Kernel.Run

end
-- ==== Proof.K.Run.lean ====
/-
  The whole program's run: the three stretches of host operations and the two regions in order.
  Every weakly fair execution from a memory with zero counters terminates without a fault, and
  every unscoped buffer ends at the contents the fold of Vals names.
-/
import proofs.«101562_j5755256177387_1_alg».proof.Proof.K.R0
import proofs.«101562_j5755256177387_1_alg».proof.Proof.K.R1
import proofs.«101562_j5755256177387_1_alg».proof.Proof.K.Vals
import proofs.«101562_j5755256177387_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (V3 m) c
  | ⟨1, _⟩ => fun c => R1.dat (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the owes. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered from every unscoped buffer at the entry contents, left at the exit
    contents. Its arrays are split out of the unscoped buffers and put back at what the write-backs leave; the
    generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ ((pdats m 0 c).Φ 0 : sProp 𝕄) := R0.hin (V3 m) c
    iintro ⟨Hp, -, Hr⟩
    iapply h
    isplitl [Hr]; · iexact Hr
    iexact Hp
  hout c := by
    rw [Pipeline.ownSems0_none]
    have h : ((pdats m 0 c).Φ (Fin.last cfg0.N) : sProp 𝕄) ⊢ iprop(Pipeline.scopedRest spec0 c ∗ ∃ r, prngReg c r) := R0.hout (V3 m) c
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit
    contents. Its arrays are split out of the unscoped buffers and put back at what the write-backs leave; the
    generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ ((pdats m 1 c).Φ 0 : sProp 𝕄) := R1.hin (V4 m) c
    iintro ⟨Hp, -, Hr⟩
    iapply h
    isplitl [Hr]; · iexact Hr
    iexact Hp
  hout c := by
    rw [Pipeline.ownSems0_none]
    have h : ((pdats m 1 c).Φ (Fin.last cfg1.N) : sProp 𝕄) ⊢ iprop(Pipeline.scopedRest spec1 c ∗ ∃ r, prngReg c r) := R1.hout (V4 m) c
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's five items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m) ]

/-- The program is the run of its items. -/
theorem main_run (c : Dev nD) : main (F := F) c = Pipeline.Seg.run (segs m) := (main_chain c).trans (by chain_rfl)

set_option backward.isDefEq.respectTransparency.types false in
/-- From any memory with zero counters every weakly fair execution terminates, nothing faulting, and every unscoped
    buffer of every core ends at the fold's last contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.Run

end
-- ==== Proof.K.Final.lean ====
/-
  What the run leaves: the arguments as launched (at any float instance), and, on the extended reals,
  the result array at U (lam ⊙ (Uᵀ x)) with lam the filter column the host operations compute.
-/
import proofs.«101562_j5755256177387_1_alg».proof.Proof.K.Run

set_option maxRecDepth 16384

noncomputable section

namespace Cert.Kernel.Run

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference no host operation writes holds its launch contents when the first region is entered. -/
theorem W3_of (c : Dev nD) (r : Ref sig .tc) (h3 : r ∉ hostOps0_2_W) (h2 : r ∉ hostOps0_1_W) (h1 : r ∉ hostOps0_W) :
    W3 m c (Proc.devRef .tc r) = m ((c : Thread nD τ).loc r) :=
  (V3_of m c r h3).trans <| (V2_of m c r h2).trans <| (V1_of m c r h1).trans rfl

/-- U at the second region's entry: an input of the first region, which leaves it as it found it. -/
theorem W4_arg1 (c : Dev nD) : W4 m c (Proc.devRef .tc main_arg1) = m ((c : Thread nD τ).loc main_arg1) :=
  (W4_arr m c 0).trans <| ((R0.dat (V3 m) c).arrAt_in 0 rfl _).trans <| (R0.A_eq (V3 m) c 0).trans <|
    W3_of m c main_arg1 (by decide) (by decide) (by decide)
/-- x likewise. -/
theorem W4_arg0 (c : Dev nD) : W4 m c (Proc.devRef .tc main_arg0) = m ((c : Thread nD τ).loc main_arg0) :=
  (W4_arr m c 1).trans <| ((R0.dat (V3 m) c).arrAt_in 1 rfl _).trans <| (R0.A_eq (V3 m) c 1).trans <|
    W3_of m c main_arg0 (by decide) (by decide) (by decide)

theorem W5_arg1 (c : Dev nD) : W5 m c (Proc.devRef .tc main_arg1) = m ((c : Thread nD τ).loc main_arg1) :=
  (W5_arr m c 0).trans <| ((R1.dat (V4 m) c).arrAt_in 0 rfl _).trans <| (R1.A_eq (V4 m) c 0).trans <| W4_arg1 m c
theorem W5_arg0 (c : Dev nD) : W5 m c (Proc.devRef .tc main_arg0) = m ((c : Thread nD τ).loc main_arg0) :=
  (W5_of_ne m c main_arg0 (by decide)).trans <| W4_arg0 m c
theorem W5_arg2 (c : Dev nD) : W5 m c (Proc.devRef .tc main_arg2) = m ((c : Thread nD τ).loc main_arg2) :=
  (W5_of_ne m c main_arg2 (by decide)).trans <| (W4_of_ne m c main_arg2 (by decide)).trans <|
    W3_of m c main_arg2 (by decide) (by decide) (by decide)
theorem W5_arg3 (c : Dev nD) : W5 m c (Proc.devRef .tc main_arg3) = m ((c : Thread nD τ).loc main_arg3) :=
  (W5_of_ne m c main_arg3 (by decide)).trans <| (W4_of_ne m c main_arg3 (by decide)).trans <|
    W3_of m c main_arg3 (by decide) (by decide) (by decide)
theorem W5_arg4 (c : Dev nD) : W5 m c (Proc.devRef .tc main_arg4) = m ((c : Thread nD τ).loc main_arg4) :=
  (W5_of_ne m c main_arg4 (by decide)).trans <| (W4_of_ne m c main_arg4 (by decide)).trans <|
    W3_of m c main_arg4 (by decide) (by decide) (by decide)

/-- The frame, at any float instance: the program runs to the end, faults nowhere, and its five argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c)⟩) (run m ρ)

end Cert.Kernel.Run

end
-- ==== Proof.KI.R0Defs.lean ====
/-
  Region 0 (the first matrix product, scaled row by row): what the pipeline's proof data say.
  The grid is 8 × 8, point t = 8·mb + kb. At every point the body adds to a 1024 × 256 accumulator
  the product of the transposed 1024 × 1024 block (kb, mb) of U with the block kb of x; the
  accumulator starts from zero where kb = 0, and where kb = 7 it is multiplied row by row by the
  filter column's block mb and stored as block mb of the result.
  Everything here is stated at a parameter V: the buffers' contents when the region is entered.
-/
import proofs.«101562_j5755256177387_1_alg».proof.Proof.Gen.KernelIdeal.Launch
import proofs.«101562_j5755256177387_1_alg».proof.Proof.Gen.KernelIdeal.Skeleton
import proofs.«101562_j5755256177387_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks at their literal vector types. -/
abbrev ublk (c : Dev nD) (t : Fin cfg0.N) : Vec F S1024x1024 .f32 := iblk V c 0 t
abbrev xblk (c : Dev nD) (t : Fin cfg0.N) : Vec F S1024x256 .f32 := iblk V c 1 t
abbrev lblk (c : Dev nD) (t : Fin cfg0.N) : Vec F S1024x1 .f32 := iblk V c 2 t

/-- The accumulator after the body at position n: the point's product added to zero where
    n ≡ 0 (mod 8), to what the point before left elsewhere. -/
def acc (c : Dev nD) : (n : ℕ) → n < cfg0.N → Vec F S1024x256 .f32
  | 0, hn => k0_pay2 (ublk V c ⟨0, hn⟩) (xblk V c ⟨0, hn⟩) k0_pay1
  | n + 1, hn => k0_pay2 (ublk V c ⟨n + 1, hn⟩) (xblk V c ⟨n + 1, hn⟩)
      (if (n + 1) % 8 = 0 then k0_pay1 else acc c n (Nat.lt_of_succ_lt hn))

theorem acc_reset (c : Dev nD) (t : Fin cfg0.N) (h : t.val % 8 = 0) :
    acc V c t.val t.isLt = k0_pay2 (ublk V c t) (xblk V c t) k0_pay1 := by
  obtain ⟨n, hn⟩ := t
  cases n with
  | zero => rfl
  | succ n => exact congrArg (k0_pay2 _ _) (if_pos h)

theorem acc_step (c : Dev nD) (t : Fin cfg0.N) (h : ¬ t.val % 8 = 0) :
    acc V c t.val t.isLt = k0_pay2 (ublk V c t) (xblk V c t) (acc V c (t.val - 1) (Nat.lt_of_le_of_lt (Nat.sub_le _ _) t.isLt)) := by
  obtain ⟨n, hn⟩ := t
  cases n with
  | zero => exact absurd (Nat.zero_mod _) h
  | succ n => exact congrArg (k0_pay2 _ _) (if_neg h)

/-- What the body stores into the result's staging buffer where it stores at all (n ≡ 7 mod 8);
    at the other points the window is idle and this value is consulted by nothing. -/
def outAt (c : Dev nD) (t : Fin cfg0.N) : Vec F S1024x256 .f32 :=
  k0_pay3 (acc V c t.val t.isLt) (lblk V c t)

/-- The scratch operand as a memref. -/
abbrev scM : Memref sig .tc .vmem S1024x256 .f32 := Memref.whole cc0_scratch0

/-- The other pipeline's scoped buffers, which this region never touches, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch operand as a memref owned at some contents. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- The region invariant before position n: before the first point the class's; afterwards the
    accumulator at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM fullShare (acc V c n hn) ∗ others (F := F) c) ∗ (∃ r, prngReg c r))

/-- The proof data of pipeline 0 on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]

end Cert.KernelIdeal.R0

end
-- ==== Proof.KI.R0Runs.lean ====
/-
  Region 0: the kernel body run once per control case, on any whole memrefs, with what each buffer holds
  afterwards stated outright. The grid point fixes two conditions: whether the accumulator is first zeroed
  (position ≡ 0 mod 8) and whether the result block is stored at the end (position ≡ 7 mod 8). In every case
  the accumulator ends at itself (or zero) plus the product of the point's two blocks; the result's buffer is
  touched only in the last case.
-/
import proofs.«101562_j5755256177387_1_alg».proof.Proof.KI.R0Defs
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition (the accumulator is zeroed), from the grid coordinates. -/
abbrev condZ (i : grid0.Coords) : Prop := (Scalar.cmpi .ne (Scalar.extui (Scalar.cmpi .eq (BitVec.ofNat 32 (i 1).val) 0#32)) 0#32) = 1#1
/-- It holds where the position is ≡ 0 (mod 8). -/
theorem hcondZ : ∀ t : Fin cfg0.N, condZ (grid0.coords t) ↔ t.val % 8 = 0 :=
  (by decide +kernel : ∀ t : Fin grid0.N, condZ (grid0.coords t) ↔ t.val % 8 = 0)

/-- The second branch's condition (the result block is stored), from the grid coordinates. -/
abbrev condS (i : grid0.Coords) : Prop := k0_cond2 i = 1#1
/-- It holds where the position is ≡ 7 (mod 8). -/
theorem hcondS : ∀ t : Fin cfg0.N, condS (grid0.coords t) ↔ t.val % 8 = 7 :=
  (by decide +kernel : ∀ t : Fin grid0.N, condS (grid0.coords t) ↔ t.val % 8 = 7)

/-- The whole-block rectangles sit at offset zero. -/
theorem hz256 : (![0, 0] : Fin S1024x256.rank → Nat) = fun _ => 0 := funext fun a => by fin_cases a <;> rfl
theorem hz1024 : (![0, 0] : Fin S1024x1024.rank → Nat) = fun _ => 0 := funext fun a => by fin_cases a <;> rfl
theorem hz1 : (![0, 0] : Fin S1024x1.rank → Nat) = fun _ => 0 := funext fun a => by fin_cases a <;> rfl

set_option maxHeartbeats 1000000 in
/-- At the start of a row (first branch taken, second not) the body stores zeros over whatever the accumulator
    held, then reads the two blocks and stores zero plus their product. -/
theorem run_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : condZ i) (hc1 : ¬condS i)
    (u : Vec F S1024x1024 .f32) (x : Vec F S1024x256 .f32) (l : Vec F S1024x1 .f32) (o : Vec F S1024x256 .f32)
    (E : Set ℕ) (K : PUnit → sProp 𝕄) :
    iprop(owns (c : Thread nD τ) arg2 fullShare u ∗ owns (c : Thread nD τ) arg3 fullShare x ∗ owns (c : Thread nD τ) arg4 fullShare l
        ∗ owns (c : Thread nD τ) arg5 fullShare o ∗ (∃ d, owns (c : Thread nD τ) arg6 fullShare d)
        ∗ (iprop(owns (c : Thread nD τ) arg2 fullShare u ∗ owns (c : Thread nD τ) arg3 fullShare x ∗ owns (c : Thread nD τ) arg4 fullShare l
            ∗ owns (c : Thread nD τ) arg5 fullShare o ∗ owns (c : Thread nD τ) arg6 fullShare (k0_pay2 u x k0_pay1)) -∗ K ⟨⟩))
      ⊢ wp frame (wpE (defs₀ (F := F)) Variants.none c none) E (cc0__stageA_kernel i arg2 harg2 arg3 harg3 arg4 harg4 arg5 harg5 arg6 harg6) K := by
  simp only [cc0__stageA_kernel_eq_skeleton]; unfold cc0__stageA_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [View.read_writes_eq_canon _ _ _ (View.cover_of_tiled [⟨_, _⟩, ⟨_, _⟩] S1024x256.size (by rfl))]
  rw [View.canon_cons_unit_zero (S := S1024x256) hz256, View.readCov_unit_zero (S := S1024x256) _ hz256]
  simp only [View.readAt_eq_ld, hf2, hf3, View.ld_unit_zero (S := S1024x1024) hz1024, View.ld_unit_zero (S := S1024x256) hz256]

set_option maxHeartbeats 1000000 in
/-- Between the ends of a row of the grid (neither branch taken) the body reads the two blocks and the
    accumulator and stores the accumulator plus the blocks' product; every other buffer is handed back as found. -/
theorem run_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬condZ i) (hc1 : ¬condS i)
    (u : Vec F S1024x1024 .f32) (x : Vec F S1024x256 .f32) (l : Vec F S1024x1 .f32) (o : Vec F S1024x256 .f32) (s : Vec F S1024x256 .f32)
    (E : Set ℕ) (K : PUnit → sProp 𝕄) :
    iprop(owns (c : Thread nD τ) arg2 fullShare u ∗ owns (c : Thread nD τ) arg3 fullShare x ∗ owns (c : Thread nD τ) arg4 fullShare l
        ∗ owns (c : Thread nD τ) arg5 fullShare o ∗ owns (c : Thread nD τ) arg6 fullShare s
        ∗ (iprop(owns (c : Thread nD τ) arg2 fullShare u ∗ owns (c : Thread nD τ) arg3 fullShare x ∗ owns (c : Thread nD τ) arg4 fullShare l
            ∗ owns (c : Thread nD τ) arg5 fullShare o ∗ owns (c : Thread nD τ) arg6 fullShare (k0_pay2 u x s)) -∗ K ⟨⟩))
      ⊢ wp frame (wpE (defs₀ (F := F)) Variants.none c none) E (cc0__stageA_kernel i arg2 harg2 arg3 harg3 arg4 harg4 arg5 harg5 arg6 harg6) K := by
  simp only [cc0__stageA_kernel_eq_skeleton]; unfold cc0__stageA_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (View.cover_of_tiled [⟨_, _⟩] S1024x256.size (by rfl)), View.canon_unit_zero hz256]
  simp only [View.readAt_eq_ld, hf2, hf3, View.ld_unit_zero (S := S1024x1024) hz1024, View.ld_unit_zero (S := S1024x256) hz256, hf6]

set_option maxHeartbeats 1000000 in
/-- At the end of a row (second branch taken, first not) the body accumulates as in between, then reads the
    accumulator back and the filter column's block and stores their row-by-row product into the result's buffer,
    whatever that held. -/
theorem run_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬condZ i) (hc1 : condS i)
    (u : Vec F S1024x1024 .f32) (x : Vec F S1024x256 .f32) (l : Vec F S1024x1 .f32) (s : Vec F S1024x256 .f32)
    (E : Set ℕ) (K : PUnit → sProp 𝕄) :
    iprop(owns (c : Thread nD τ) arg2 fullShare u ∗ owns (c : Thread nD τ) arg3 fullShare x ∗ owns (c : Thread nD τ) arg4 fullShare l
        ∗ (∃ d, owns (c : Thread nD τ) arg5 fullShare d) ∗ owns (c : Thread nD τ) arg6 fullShare s
        ∗ (iprop(owns (c : Thread nD τ) arg2 fullShare u ∗ owns (c : Thread nD τ) arg3 fullShare x ∗ owns (c : Thread nD τ) arg4 fullShare l
            ∗ owns (c : Thread nD τ) arg5 fullShare (k0_pay3 (k0_pay2 u x s) l) ∗ owns (c : Thread nD τ) arg6 fullShare (k0_pay2 u x s)) -∗ K ⟨⟩))
      ⊢ wp frame (wpE (defs₀ (F := F)) Variants.none c none) E (cc0__stageA_kernel i arg2 harg2 arg3 harg3 arg4 harg4 arg5 harg5 arg6 harg6) K := by
  simp only [cc0__stageA_kernel_eq_skeleton]; unfold cc0__stageA_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.read_writes_eq_canon _ _ _ (View.cover_of_tiled [⟨_, _⟩] S1024x256.size (by rfl)), View.canon_unit_zero hz256]
    rw [View.readCov_unit_zero (S := S1024x256) _ hz256]
    simp only [View.readAt_eq_ld, hf2, hf3, View.ld_unit_zero (S := S1024x1024) hz1024, View.ld_unit_zero (S := S1024x256) hz256, hf4, hf6, View.ld_unit_zero (S := S1024x1) hz1]
  iexists _; isplitr
  swap; · iexact H6
  ipureintro
  sl_unfold_words
  rw [View.read_writes_eq_canon _ _ _ (View.cover_of_tiled [⟨_, _⟩] S1024x256.size (by rfl)), View.canon_unit_zero hz256]
  simp only [View.readAt_eq_ld, hf2, hf3, View.ld_unit_zero (S := S1024x1024) hz1024, View.ld_unit_zero (S := S1024x256) hz256, hf6]

end Cert.KernelIdeal.R0

end
-- ==== Proof.KI.R0.lean ====
/-
  Region 0: the body obligation of its pipeline against the proof data of R0Defs, and the
  invariant's two ends.
-/
import proofs.«101562_j5755256177387_1_alg».proof.Proof.KI.R0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

/-- The three inputs are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Where the result block is not stored, the result's window is idle and is not written back; -/
theorem idle_3 : ∀ t : Fin cfg0.N, ¬condS (grid0.coords t) → cfg0.idle 3 (grid0.coords t) = true := by decide +kernel
theorem noFlush_3 : ∀ t : Fin cfg0.N, ¬condS (grid0.coords t) → (cfg0.win 3).flush t = false := by decide +kernel
/-- where it is stored, the window is live. -/
theorem live_3 : ∀ t : Fin cfg0.N, condS (grid0.coords t) → cfg0.idle 3 (grid0.coords t) = false := by decide +kernel

/-! ## The staging memrefs at a point, as the pipeline passes them -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)

/-! ## The inputs' buffers hold their blocks at every point

An input is uncut and never idle, the body leaves it as found, and where it is not fetched its block index has
not moved since the fetch: so its current buffer holds the point's block, fetched there or not. -/

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The invariant, position by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (acc V c n hn) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare (acc V c (n - 1) (by omega)) ∗ others (F := F) c) ∗ (∃ r, prngReg c r)) := by
  cases n with
  | zero => exact absurd rfl hz
  | succ n => rfl

theorem PhiS_castSucc (c : Dev nD) (t : Fin cfg0.N) :
    (dat V c).Φ t.castSucc = PhiS V c t.val (Nat.le_of_lt t.isLt) := by
  dsimp only [dat]; simp only [Fin.coe_castSucc]

/-! ## The body at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold the point's blocks; the position modulo 8 says which of the
    three cases the point is in. At the start of a row the accumulator is handed over at whatever it holds and
    comes back at zero plus the product; elsewhere it is handed over at what the point before left and comes back
    with the product added, which is the recursion defining acc. The result's buffer is idle except at the end of a
    row, where it receives the accumulator scaled row by row by the filter column's block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 64 := lt_of_lt_of_eq t.isLt (show cfg0.N = 64 from N_0)
  by_cases h0 : t.val % 8 = 0
  · have h1 : ¬t.val % 8 = 7 := by omega
    have hc0 : condZ (grid0.coords t) := (hcondZ t).mpr h0
    have hc1 : ¬condS (grid0.coords t) := fun h => h1 ((hcondS t).mp h)
    rw [Dat.leavesExact_idle (dat V c) 3 t (idle_3 t hc1) (noFlush_3 t hc1)]
    rw [acc_reset V c t h0]
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply (run_A c (grid0.coords t) _ (hs0 t) _ (hs1 t) _ (hs2 t) _ (hs3 t) _ (Memref.isWhole_whole _) hc0 hc1 (ublk V c t) (xblk V c t) (lblk V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_A c (grid0.coords t) _ (hs0 t) _ (hs1 t) _ (hs2 t) _ (hs3 t) _ (Memref.isWhole_whole _) hc0 hc1 (ublk V c t) (xblk V c t) (lblk V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬condZ (grid0.coords t) := fun h => h0 ((hcondZ t).mp h)
    by_cases h1 : t.val % 8 = 7
    · have hc1 : condS (grid0.coords t) := (hcondS t).mpr h1
      rw [show (dat V c).leavesExact 3 t = owns (c : Thread nD τ) (ms3 t) fullShare ((dat V c).after 3 t) from by
        unfold Dat.leavesExact; rw [live_3 t hc1], after_3]
      unfold outAt
      rw [acc_step V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_C c (grid0.coords t) _ (hs0 t) _ (hs1 t) _ (hs2 t) _ (hs3 t) _ (Memref.isWhole_whole _) hc0 hc1 (ublk V c t) (xblk V c t) (lblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬condS (grid0.coords t) := fun h => h1 ((hcondS t).mp h)
      rw [Dat.leavesExact_idle (dat V c) 3 t (idle_3 t hc1) (noFlush_3 t hc1)]
      rw [acc_step V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_B c (grid0.coords t) _ (hs0 t) _ (hs1 t) _ (hs2 t) _ (hs3 t) _ (Memref.isWhole_whole _) hc0 hc1 (ublk V c t) (xblk V c t) (lblk V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg0.N) ⊢ Pipeline.ΦA spec0 c := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hoth⟩, Hg⟩
  isplitl [HS Hoth]
  · isplitl [HS]; · iexists _; iexact HS
    iexact Hoth
  iexact Hg

end Cert.KernelIdeal.R0

end
-- ==== Proof.KI.R1Defs.lean ====
/-
  Region 1 (the second matrix product): what the pipeline's proof data say.
  The grid is 8 × 8, point t = 8·mb + kb. At every point the body adds to a 1024 × 256 accumulator
  the product of the 1024 × 1024 block (mb, kb) of U with the block kb of the first region's result;
  the accumulator starts from zero where kb = 0, and where kb = 7 it is stored as block mb of the result.
  Everything here is stated at a parameter V: the buffers' contents when the region is entered.
-/
import proofs.«101562_j5755256177387_1_alg».proof.Proof.Gen.KernelIdeal.Launch
import proofs.«101562_j5755256177387_1_alg».proof.Proof.Gen.KernelIdeal.Skeleton
import proofs.«101562_j5755256177387_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks at their literal vector types. -/
abbrev ublk (c : Dev nD) (t : Fin cfg1.N) : Vec F S1024x1024 .f32 := iblk V c 0 t
abbrev sblk (c : Dev nD) (t : Fin cfg1.N) : Vec F S1024x256 .f32 := iblk V c 1 t

/-- The accumulator after the body at position n: the point's product added to zero where
    n ≡ 0 (mod 8), to what the point before left elsewhere. -/
def acc (c : Dev nD) : (n : ℕ) → n < cfg1.N → Vec F S1024x256 .f32
  | 0, hn => k1_pay2 (ublk V c ⟨0, hn⟩) (sblk V c ⟨0, hn⟩) k1_pay1
  | n + 1, hn => k1_pay2 (ublk V c ⟨n + 1, hn⟩) (sblk V c ⟨n + 1, hn⟩)
      (if (n + 1) % 8 = 0 then k1_pay1 else acc c n (Nat.lt_of_succ_lt hn))

theorem acc_reset (c : Dev nD) (t : Fin cfg1.N) (h : t.val % 8 = 0) :
    acc V c t.val t.isLt = k1_pay2 (ublk V c t) (sblk V c t) k1_pay1 := by
  obtain ⟨n, hn⟩ := t
  cases n with
  | zero => rfl
  | succ n => exact congrArg (k1_pay2 _ _) (if_pos h)

theorem acc_step (c : Dev nD) (t : Fin cfg1.N) (h : ¬ t.val % 8 = 0) :
    acc V c t.val t.isLt = k1_pay2 (ublk V c t) (sblk V c t) (acc V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-- What the body stores into the result's staging buffer where it stores at all (n ≡ 7 mod 8): the
    accumulator; at the other points the window is idle and this value is consulted by nothing. -/
def outAt (c : Dev nD) (t : Fin cfg1.N) : Vec F S1024x256 .f32 := acc V c t.val t.isLt

/-- The scratch operand as a memref. -/
abbrev scM : Memref sig .tc .vmem S1024x256 .f32 := Memref.whole cc1_scratch0

/-- The other pipeline's scoped buffers, which this region never touches, each whole at some contents,
    and then X (the scratch operand, stated by the caller). -/
def othersThen (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The class invariant with the scratch operand as a memref owned at some contents. -/
theorem PhiA_eq (c : Dev nD) :
    (Pipeline.ΦA spec1 c : sProp 𝕄)
      = iprop(othersThen (F := F) c iprop(∃ d, owns (c : Thread nD τ) scM fullShare d) ∗ (∃ r, prngReg c r)) := by
  unfold Pipeline.ΦA othersThen; rw [scopedRest1_eq]; simp only [scM, owns_whole]; try rfl

/-- The region invariant before position n: before the first point the class's; afterwards the
    accumulator at what the point before left, the other scoped buffers at anything, the generator
    register at some state. -/
def PhiS (c : Dev nD) : (n : ℕ) → n ≤ cfg1.N → sProp 𝕄
  | 0, _ => Pipeline.ΦA spec1 c
  | n + 1, hn => iprop(othersThen (F := F) c (owns (c : Thread nD τ) scM fullShare (acc V c n hn)) ∗ (∃ r, prngReg c r))

/-- The proof data of pipeline 1 on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outAt V c t := by dsimp only [dat]

end Cert.KernelIdeal.R1

end
-- ==== Proof.KI.R1Runs.lean ====
/-
  Region 1: the kernel body's run in each of its three control cases (kb = 0, 0 < kb < 7, kb = 7), on
  whole memrefs at named contents, and what the runs are stated over: the two branch conditions in closed
  form over the grid, and where the result's window is idle.
-/
import proofs.«101562_j5755256177387_1_alg».proof.Proof.KI.R1Defs
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-block rectangle are zero. -/
theorem hz : (![0, 0] : Fin 2 → Nat) = fun _ => 0 := funext fun a => by fin_cases a <;> rfl

/-! ## The body's two branch conditions, over the grid coordinates -/

/-- The first conditional's condition (the reduction index is 0), as the skeleton spells it. -/
abbrev condA (i : grid1.Coords) : Prop := (Scalar.cmpi .ne (Scalar.extui (Scalar.cmpi .eq (BitVec.ofNat 32 (i 1).val) 0#32)) 0#32) = 1#1
/-- The second conditional's condition (the reduction index is 7). -/
abbrev condC (i : grid1.Coords) : Prop := k1_cond2 i = 1#1

/-- At point t = 8·mb + kb the first holds exactly where kb = 0: decided over the 64 points. -/
theorem hcondA : ∀ t : Fin cfg1.N, condA (grid1.coords t) ↔ t.val % 8 = 0 :=
  (by decide +kernel : ∀ t : Fin grid1.N, condA (grid1.coords t) ↔ t.val % 8 = 0)
/-- and the second exactly where kb = 7. -/
theorem hcondC : ∀ t : Fin cfg1.N, condC (grid1.coords t) ↔ t.val % 8 = 7 :=
  (by decide +kernel : ∀ t : Fin grid1.N, condC (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- The result's window is idle away from kb = 7, -/
theorem idle1_2 : ∀ t : Fin cfg1.N, ¬ t.val % 8 = 7 → cfg1.idle 2 (grid1.coords t) = true := by decide +kernel
/-- live at kb = 7, -/
theorem live1_2 : ∀ t : Fin cfg1.N, t.val % 8 = 7 → cfg1.idle 2 (grid1.coords t) = false := by decide +kernel
/-- and not written back away from kb = 7. -/
theorem noFlush1_2 (t : Fin cfg1.N) (h : ¬ t.val % 8 = 7) : (cfg1.win 2).flush t = false := by
  cases hf : (cfg1.win 2).flush t with
  | false => rfl
  | true => exact absurd ((flush1_2 t).mp hf) h

/-! ## The body's run, case by case -/

set_option maxHeartbeats 1000000 in
/-- CASE B (0 < kb < 7). On whole memrefs — the two inputs at u and x, the result's buffer at o, the
    accumulator at s — the body runs to the continuation with the inputs and the result's buffer as they
    were and the accumulator at s plus the product of u and x: its one whole-block store's payload,
    whose loads read the whole buffers. -/
theorem run_B (c : Dev nD) (i : grid1.Coords)
    (arg2 : Memref sig .tc .vmem S1024x1024 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (hc0 : ¬condA i) (hc1 : ¬condC i)
    (u : Vec F S1024x1024 .f32) (x o s : Vec F S1024x256 .f32) (E : Set ℕ) (K : PUnit → sProp 𝕄) :
    iprop(owns (c : Thread nD τ) arg2 fullShare u ∗ owns (c : Thread nD τ) arg3 fullShare x
        ∗ owns (c : Thread nD τ) arg4 fullShare o ∗ owns (c : Thread nD τ) arg5 fullShare s
        ∗ (iprop(owns (c : Thread nD τ) arg2 fullShare u ∗ owns (c : Thread nD τ) arg3 fullShare x
            ∗ owns (c : Thread nD τ) arg4 fullShare o ∗ owns (c : Thread nD τ) arg5 fullShare (k1_pay2 u x s)) -∗ K ⟨⟩))
      ⊢ wp frame (wpE (defs₀ (F := F)) Variants.none c none) E (cc1__stageB_kernel i arg2 harg2 arg3 harg3 arg4 harg4 arg5 harg5) K := by
  simp only [cc1__stageB_kernel_eq_skeleton]; unfold cc1__stageB_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.mem_singleton_self _, View.mem_set_unit_zero hz inb_S1024x256_S1024x256_0_0 y⟩), View.canon_unit_zero hz]
  simp only [View.readAt_eq_ld, harg2.read_unread, harg3.read_unread, harg5.read_unread, View.ld_unit_zero (S := S1024x1024) hz, View.ld_unit_zero (S := S1024x256) hz]

set_option maxHeartbeats 1000000 in
/-- CASE A (kb = 0). The accumulator enters at anything; the body stores the zero block over it, reads it
    back and leaves the zero block plus the product of u and x. -/
theorem run_A (c : Dev nD) (i : grid1.Coords)
    (arg2 : Memref sig .tc .vmem S1024x1024 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (hc0 : condA i) (hc1 : ¬condC i)
    (u : Vec F S1024x1024 .f32) (x o : Vec F S1024x256 .f32) (E : Set ℕ) (K : PUnit → sProp 𝕄) :
    iprop(owns (c : Thread nD τ) arg2 fullShare u ∗ owns (c : Thread nD τ) arg3 fullShare x
        ∗ owns (c : Thread nD τ) arg4 fullShare o ∗ (∃ d, owns (c : Thread nD τ) arg5 fullShare d)
        ∗ (iprop(owns (c : Thread nD τ) arg2 fullShare u ∗ owns (c : Thread nD τ) arg3 fullShare x
            ∗ owns (c : Thread nD τ) arg4 fullShare o ∗ owns (c : Thread nD τ) arg5 fullShare (k1_pay2 u x k1_pay1)) -∗ K ⟨⟩))
      ⊢ wp frame (wpE (defs₀ (F := F)) Variants.none c none) E (cc1__stageB_kernel i arg2 harg2 arg3 harg3 arg4 harg4 arg5 harg5) K := by
  simp only [cc1__stageB_kernel_eq_skeleton]; unfold cc1__stageB_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self, View.mem_set_unit_zero hz inb_S1024x256_S1024x256_0_0 y⟩),
    View.canon_cons_unit_zero (S := S1024x256) hz, View.readCov_unit_zero (S := S1024x256) _ hz]
  simp only [View.readAt_eq_ld, harg2.read_unread, harg3.read_unread, View.ld_unit_zero (S := S1024x1024) hz, View.ld_unit_zero (S := S1024x256) hz]

set_option maxHeartbeats 1000000 in
/-- CASE C (kb = 7). As case B for the accumulator; then the accumulator is read back and stored whole over
    the result's buffer, which enters at anything. -/
theorem run_C (c : Dev nD) (i : grid1.Coords)
    (arg2 : Memref sig .tc .vmem S1024x1024 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (hc0 : ¬condA i) (hc1 : condC i)
    (u : Vec F S1024x1024 .f32) (x s : Vec F S1024x256 .f32) (E : Set ℕ) (K : PUnit → sProp 𝕄) :
    iprop(owns (c : Thread nD τ) arg2 fullShare u ∗ owns (c : Thread nD τ) arg3 fullShare x
        ∗ (∃ d, owns (c : Thread nD τ) arg4 fullShare d) ∗ owns (c : Thread nD τ) arg5 fullShare s
        ∗ (iprop(owns (c : Thread nD τ) arg2 fullShare u ∗ owns (c : Thread nD τ) arg3 fullShare x
            ∗ owns (c : Thread nD τ) arg4 fullShare (k1_pay2 u x s) ∗ owns (c : Thread nD τ) arg5 fullShare (k1_pay2 u x s)) -∗ K ⟨⟩))
      ⊢ wp frame (wpE (defs₀ (F := F)) Variants.none c none) E (cc1__stageB_kernel i arg2 harg2 arg3 harg3 arg4 harg4 arg5 harg5) K := by
  simp only [cc1__stageB_kernel_eq_skeleton]; unfold cc1__stageB_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero hz inb_S1024x256_S1024x256_0_0 y⟩),
      View.canon_unit_zero hz, View.readCov_unit_zero (S := S1024x256) _ hz]
    simp only [View.readAt_eq_ld, harg2.read_unread, harg3.read_unread, harg5.read_unread, View.ld_unit_zero (S := S1024x1024) hz, View.ld_unit_zero (S := S1024x256) hz]
  iexists _; isplitr
  swap; · iexact HS
  ipureintro
  sl_unfold_words
  rw [View.read_writes_eq_canon _ _ _ (fun y => ⟨_, List.mem_singleton_self _, View.mem_set_unit_zero hz inb_S1024x256_S1024x256_0_0 y⟩), View.canon_unit_zero hz]
  simp only [View.readAt_eq_ld, harg2.read_unread, harg3.read_unread, harg5.read_unread, View.ld_unit_zero (S := S1024x1024) hz, View.ld_unit_zero (S := S1024x256) hz]

end Cert.KernelIdeal.R1

end
-- ==== Proof.KI.R1.lean ====
/-
  Region 1: the body obligation of its pipeline against the proof data of R1Defs, and the
  invariant's two ends.
-/
import proofs.«101562_j5755256177387_1_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs the body is called with -/

/-- Each window's current staging memref at point t, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)

/-! ## The inputs' buffers -/

/-- Both inputs are fetched at every point, so the body finds each one's block in its current buffer. -/
theorem before_0 (c : Dev nD) (t : Fin cfg1.N) (d) : (dat V c).before 0 t d = iblk V c 0 t :=
  ((dat V c).before_fetched 0 t (fetch1_0 t) d).trans (by unfold Dat.fetched Dat.blockOf iblk; rw [A_eq]; try rfl)
theorem before_1 (c : Dev nD) (t : Fin cfg1.N) (d) : (dat V c).before 1 t d = iblk V c 1 t :=
  ((dat V c).before_fetched 1 t (fetch1_1 t) d).trans (by unfold Dat.fetched Dat.blockOf iblk; rw [A_eq]; try rfl)

/-- and leaves it there. -/
theorem leaves_0 (c : Dev nD) (t : Fin cfg1.N) :
    (dat V c).leavesExact 0 t = owns (c : Thread nD τ) (ms1_0 t) fullShare (ublk V c t) := by
  unfold Dat.leavesExact; rw [live1_0 t, after_0]
theorem leaves_1 (c : Dev nD) (t : Fin cfg1.N) :
    (dat V c).leavesExact 1 t = owns (c : Thread nD τ) (ms1_1 t) fullShare (sblk V c t) := by
  unfold Dat.leavesExact; rw [live1_1 t, after_1]
/-- Where kb = 7 the result's buffer is left at the accumulator. -/
theorem leaves_2 (c : Dev nD) (t : Fin cfg1.N) (h7 : t.val % 8 = 7) :
    (dat V c).leavesExact 2 t = owns (c : Thread nD τ) (ms1_2 t) fullShare (acc V c t.val t.isLt) := by
  unfold Dat.leavesExact; rw [live1_2 t h7, after_2]; rfl

/-! ## The invariant, position by position -/

theorem PhiS_zero (c : Dev nD) (n : ℕ) (h : n ≤ cfg1.N) (hz : n = 0) : PhiS V c n h = Pipeline.ΦA spec1 c := by
  subst hz; rfl

/-- After point n: the accumulator at that point's contents. -/
theorem PhiS_succ (c : Dev nD) (n : ℕ) (hn : n < cfg1.N) :
    PhiS V c (n + 1) hn = iprop(othersThen (F := F) c (owns (c : Thread nD τ) scM fullShare (acc V c n hn)) ∗ (∃ r, prngReg c r)) := rfl

/-- Before a point that is not the first: the accumulator at what the point before left. -/
theorem PhiS_pos (c : Dev nD) (n : ℕ) (h : n ≤ cfg1.N) (hz : n ≠ 0) :
    PhiS V c n h = iprop(othersThen (F := F) c (owns (c : Thread nD τ) scM fullShare (acc V c (n - 1) (by omega))) ∗ (∃ r, prngReg c r)) := by
  cases n with
  | zero => exact absurd rfl hz
  | succ n => rfl

/-- The scratch operand is taken out of the scoped rest and another statement of it put back. -/
theorem othersThen_swap (c : Dev nD) (X Y : sProp 𝕄) :
    othersThen (F := F) c X ⊢ iprop(X ∗ (Y -∗ othersThen (F := F) c Y)) := by
  unfold othersThen
  iintro ⟨O1, O2, O3, O4, O5, O6, O7, O8, O9, HX⟩
  isplitl [HX]; · iexact HX
  iintro HY
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  iexact HY

/-- Forgetting the accumulator's contents: at every position the invariant gives the scratch operand at
    some contents. -/
theorem PhiS_forget (c : Dev nD) (n : ℕ) (h : n ≤ cfg1.N) :
    PhiS V c n h ⊢ iprop(othersThen (F := F) c iprop(∃ d, owns (c : Thread nD τ) scM fullShare d) ∗ (∃ r, prngReg c r)) := by
  by_cases hz : n = 0
  · rw [PhiS_zero V c n h hz, PhiA_eq]
  · rw [PhiS_pos V c n h hz]
    iintro ⟨HO, Hg⟩
    isplitl [HO]
    · ihave ⟨HS, Hb⟩ := (othersThen_swap (F := F) c _ iprop(∃ d, owns (c : Thread nD τ) scM fullShare d)) $$ HO
      iapply Hb
      iexists _; iexact HS
    iexact Hg

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The inputs' buffers hold their blocks; t mod 8 says which case the point is in.
    Where kb = 0 the accumulator's contents are forgotten and the run leaves the zero block plus the
    point's product (acc_reset); elsewhere the invariant hands the accumulator at what the point before
    left and the run adds the point's product to it (acc_step). Away from kb = 7 the result's buffer goes
    back as it came (the window is idle there and not written back); at kb = 7 it is left at the
    accumulator. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).Φ t.castSucc = PhiS V c t.val (Nat.le_of_lt t.isLt) from rfl]
  rw [leaves_0, leaves_1]
  have hN : t.val < 64 := lt_of_lt_of_eq t.isLt (show cfg1.N = 64 from N_1)
  by_cases h0 : t.val % 8 = 0
  · have h7 : ¬ t.val % 8 = 7 := by omega
    rw [Dat.leavesExact_idle (dat V c) 2 t (idle1_2 t h7) (noFlush1_2 t h7), acc_reset V c t h0]
    iintro ⟨HΦ, Ho, ⟨%d0, H0⟩, ⟨%d1, H1⟩, ⟨%d2, H2⟩⟩
    ihave ⟨HO, Hg⟩ := (PhiS_forget V c t.val (Nat.le_of_lt t.isLt)) $$ HΦ
    ihave ⟨HS, Hb⟩ := (othersThen_swap (F := F) c _ (owns (c : Thread nD τ) scM fullShare (k1_pay2 (ublk V c t) (sblk V c t) k1_pay1))) $$ HO
    iapply (run_A c (grid1.coords t) _ (hs1_0 t) _ (hs1_1 t) _ (hs1_2 t) scM (Memref.isWhole_whole _) ((hcondA t).mpr h0) (fun h => h7 ((hcondC t).mp h)) (ublk V c t) (sblk V c t) ((dat V c).before 2 t d2) Set.univ _)
    isplitl [H0]; · iexact H0
    isplitl [H1]; · iexact H1
    isplitl [H2]; · iexact H2
    isplitl [HS]; · iexact HS
    iintro ⟨H0, H1, H2, HS⟩
    isplitl [HS Hb Hg]
    · isplitl [HS Hb]
      · iapply Hb; iexact HS
      iexact Hg
    isplitl [Ho]; · iexact Ho
    isplitl [H0]; · iexact H0
    isplitl [H1]; · iexact H1
    iexists _; iexact H2
  · have hz : t.val ≠ 0 := fun e => h0 (by rw [e])
    rw [PhiS_pos V c _ _ hz, acc_step V c t h0]
    by_cases h7 : t.val % 8 = 7
    · rw [leaves_2 V c t h7, acc_step V c t h0]
      iintro ⟨⟨HO, Hg⟩, Ho, ⟨%d0, H0⟩, ⟨%d1, H1⟩, ⟨%d2, H2⟩⟩
      ihave ⟨HS, Hb⟩ := (othersThen_swap (F := F) c _ (owns (c : Thread nD τ) scM fullShare (k1_pay2 (ublk V c t) (sblk V c t) (acc V c (t.val - 1) (Nat.lt_of_le_of_lt (Nat.sub_le _ _) t.isLt))))) $$ HO
      iapply (run_C c (grid1.coords t) _ (hs1_0 t) _ (hs1_1 t) _ (hs1_2 t) scM (Memref.isWhole_whole _) (fun h => h0 ((hcondA t).mp h)) ((hcondC t).mpr h7) (ublk V c t) (sblk V c t) (acc V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hb Hg]
      · isplitl [HS Hb]
        · iapply Hb; iexact HS
        iexact Hg
      isplitl [Ho]; · iexact Ho
      isplitl [H0]; · iexact H0
      isplitl [H1]; · iexact H1
      iexact H2
    · rw [Dat.leavesExact_idle (dat V c) 2 t (idle1_2 t h7) (noFlush1_2 t h7)]
      iintro ⟨⟨HO, Hg⟩, Ho, ⟨%d0, H0⟩, ⟨%d1, H1⟩, ⟨%d2, H2⟩⟩
      ihave ⟨HS, Hb⟩ := (othersThen_swap (F := F) c _ (owns (c : Thread nD τ) scM fullShare (k1_pay2 (ublk V c t) (sblk V c t) (acc V c (t.val - 1) (Nat.lt_of_le_of_lt (Nat.sub_le _ _) t.isLt))))) $$ HO
      iapply (run_B c (grid1.coords t) _ (hs1_0 t) _ (hs1_1 t) _ (hs1_2 t) scM (Memref.isWhole_whole _) (fun h => h0 ((hcondA t).mp h)) (fun h => h7 ((hcondC t).mp h)) (ublk V c t) (sblk V c t) ((dat V c).before 2 t d2) (acc V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hb Hg]
      · isplitl [HS Hb]
        · iapply Hb; iexact HS
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After the last point the invariant gives the class's back: the accumulator's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_forget V c _ _

end Cert.KernelIdeal.R1

end
-- ==== Proof.KI.Vals.lean ====
/-
  The buffers' contents between the items of the program, as a fold from the launch memory:
  three stretches of host operations, then the two regions, each region leaving its arrays at what
  its write-backs make of them and every other buffer as it found it.
-/
import proofs.«101562_j5755256177387_1_alg».proof.Proof.KI.R0Defs
import proofs.«101562_j5755256177387_1_alg».proof.Proof.KI.R1Defs
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core c's buffers at launch. -/
abbrev W0 : Dev nD → Valuation τ sig (Elt F) := fun c b => m ((c : Dev nD), b)
/-- After the first stretch of host operations. -/
abbrev W1 : Dev nD → Valuation τ sig (Elt F) := fun c => StableHlo.after hostOps0 (W0 m c)
/-- After the clamp. -/
abbrev W2 : Dev nD → Valuation τ sig (Elt F) := fun c => StableHlo.after hostOps0_1 (W1 m c)
/-- After the third stretch: the first region's entry. -/
abbrev W3 : Dev nD → Valuation τ sig (Elt F) := fun c => StableHlo.after hostOps0_2 (W2 m c)
/-- The same read at the TensorCore's references. -/
abbrev V3 : (c : Dev nD) → (b : Ref sig .tc) → Buf (Elt F) ((c : Thread nD τ).loc b) := fun c b => W3 m c b
/-- At the first region's exit. -/
def W4 (c : Dev nD) : Valuation τ sig (Elt F) :=
  Pipeline.withArrays spec0 c (W3 m c) fun w => (R0.dat (V3 m) c).arrAt w cfg0.N
theorem W4_arr (c : Dev nD) (w : Fin cfg0.W) :
    W4 m c (Proc.devRef .tc (Pipeline.arrRef spec0 w)) = (R0.dat (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references: the second region's entry. -/
abbrev V4 : (c : Dev nD) → (b : Ref sig .tc) → Buf (Elt F) ((c : Thread nD τ).loc b) := fun c b => W4 m c b
theorem hF0 (c : Dev nD) (w : Fin cfg0.W) : (R0.dat (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- At the second region's exit. -/
def W5 (c : Dev nD) : Valuation τ sig (Elt F) :=
  Pipeline.withArrays spec1 c (W4 m c) fun w => (R1.dat (V4 m) c).arrAt w cfg1.N
theorem W5_arr (c : Dev nD) (w : Fin cfg1.W) :
    W5 m c (Proc.devRef .tc (Pipeline.arrRef spec1 w)) = (R1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (R1.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

end Cert.KernelIdeal.Run

end
-- ==== Proof.KI.Run.lean ====
/-
  The whole program's run: the three stretches of host operations and the two regions in order.
  Every weakly fair execution from a memory with zero counters terminates without a fault, and
  every unscoped buffer ends at the contents the fold of Vals names.
-/
import proofs.«101562_j5755256177387_1_alg».proof.Proof.KI.R0
import proofs.«101562_j5755256177387_1_alg».proof.Proof.KI.R1
import proofs.«101562_j5755256177387_1_alg».proof.Proof.KI.Vals
import proofs.«101562_j5755256177387_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (V3 m) c
  | ⟨1, _⟩ => fun c => R1.dat (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the owes. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered from every unscoped buffer at the entry contents, left at the exit
    contents. Its arrays are split out of the unscoped buffers and put back at what the write-backs leave; the
    generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ ((pdats m 0 c).Φ 0 : sProp 𝕄) := R0.hin (V3 m) c
    iintro ⟨Hp, -, Hr⟩
    iapply h
    isplitl [Hr]; · iexact Hr
    iexact Hp
  hout c := by
    rw [Pipeline.ownSems0_none]
    have h : ((pdats m 0 c).Φ (Fin.last cfg0.N) : sProp 𝕄) ⊢ iprop(Pipeline.scopedRest spec0 c ∗ ∃ r, prngReg c r) := R0.hout (V3 m) c
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit
    contents. Its arrays are split out of the unscoped buffers and put back at what the write-backs leave; the
    generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ ((pdats m 1 c).Φ 0 : sProp 𝕄) := R1.hin (V4 m) c
    iintro ⟨Hp, -, Hr⟩
    iapply h
    isplitl [Hr]; · iexact Hr
    iexact Hp
  hout c := by
    rw [Pipeline.ownSems0_none]
    have h : ((pdats m 1 c).Φ (Fin.last cfg1.N) : sProp 𝕄) ⊢ iprop(Pipeline.scopedRest spec1 c ∗ ∃ r, prngReg c r) := R1.hout (V4 m) c
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's five items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m) ]

/-- The program is the run of its items. -/
theorem main_run (c : Dev nD) : main (F := F) c = Pipeline.Seg.run (segs m) := (main_chain c).trans (by chain_rfl)

set_option backward.isDefEq.respectTransparency.types false in
/-- From any memory with zero counters every weakly fair execution terminates, nothing faulting, and every unscoped
    buffer of every core ends at the fold's last contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.Run

end
-- ==== Proof.KI.Final.lean ====
/-
  What the run leaves: the arguments as launched (at any float instance), and, on the extended reals,
  the result array at U (lam ⊙ (Uᵀ x)) with lam the filter column the host operations compute.
-/
import proofs.«101562_j5755256177387_1_alg».proof.Proof.KI.Run

set_option maxRecDepth 16384

noncomputable section

namespace Cert.KernelIdeal.Run

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference no host operation writes holds its launch contents when the first region is entered. -/
theorem W3_of (c : Dev nD) (r : Ref sig .tc) (h3 : r ∉ hostOps0_2_W) (h2 : r ∉ hostOps0_1_W) (h1 : r ∉ hostOps0_W) :
    W3 m c (Proc.devRef .tc r) = m ((c : Thread nD τ).loc r) :=
  (V3_of m c r h3).trans <| (V2_of m c r h2).trans <| (V1_of m c r h1).trans rfl

/-- U at the second region's entry: an input of the first region, which leaves it as it found it. -/
theorem W4_arg1 (c : Dev nD) : W4 m c (Proc.devRef .tc main_arg1) = m ((c : Thread nD τ).loc main_arg1) :=
  (W4_arr m c 0).trans <| ((R0.dat (V3 m) c).arrAt_in 0 rfl _).trans <| (R0.A_eq (V3 m) c 0).trans <|
    W3_of m c main_arg1 (by decide) (by decide) (by decide)
/-- x likewise. -/
theorem W4_arg0 (c : Dev nD) : W4 m c (Proc.devRef .tc main_arg0) = m ((c : Thread nD τ).loc main_arg0) :=
  (W4_arr m c 1).trans <| ((R0.dat (V3 m) c).arrAt_in 1 rfl _).trans <| (R0.A_eq (V3 m) c 1).trans <|
    W3_of m c main_arg0 (by decide) (by decide) (by decide)

theorem W5_arg1 (c : Dev nD) : W5 m c (Proc.devRef .tc main_arg1) = m ((c : Thread nD τ).loc main_arg1) :=
  (W5_arr m c 0).trans <| ((R1.dat (V4 m) c).arrAt_in 0 rfl _).trans <| (R1.A_eq (V4 m) c 0).trans <| W4_arg1 m c
theorem W5_arg0 (c : Dev nD) : W5 m c (Proc.devRef .tc main_arg0) = m ((c : Thread nD τ).loc main_arg0) :=
  (W5_of_ne m c main_arg0 (by decide)).trans <| W4_arg0 m c
theorem W5_arg2 (c : Dev nD) : W5 m c (Proc.devRef .tc main_arg2) = m ((c : Thread nD τ).loc main_arg2) :=
  (W5_of_ne m c main_arg2 (by decide)).trans <| (W4_of_ne m c main_arg2 (by decide)).trans <|
    W3_of m c main_arg2 (by decide) (by decide) (by decide)
theorem W5_arg3 (c : Dev nD) : W5 m c (Proc.devRef .tc main_arg3) = m ((c : Thread nD τ).loc main_arg3) :=
  (W5_of_ne m c main_arg3 (by decide)).trans <| (W4_of_ne m c main_arg3 (by decide)).trans <|
    W3_of m c main_arg3 (by decide) (by decide) (by decide)
theorem W5_arg4 (c : Dev nD) : W5 m c (Proc.devRef .tc main_arg4) = m ((c : Thread nD τ).loc main_arg4) :=
  (W5_of_ne m c main_arg4 (by decide)).trans <| (W4_of_ne m c main_arg4 (by decide)).trans <|
    W3_of m c main_arg4 (by decide) (by decide) (by decide)

/-- The frame, at any float instance: the program runs to the end, faults nowhere, and its five argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c)⟩) (run m ρ)

end Cert.KernelIdeal.Run

end
-- ==== Proof.Spec.lean ====
/-
  What both programs compute, on the extended reals, stated once.
  With U an 8192 × 8192 matrix, x an 8192 × 256 matrix and lam an 8192 × 1 column:
    scaled[i, f] = (Σₙ U[n, i] · x[n, f]) · lam[i]        (the transposed product, each row scaled)
    out[r, f]    = Σᵢ U[r, i] · s[i, f]                   (the second product)
-/
import Idealize.ShloMosaic.PureOps.Ideal.Laws
import Idealize.ShloMosaic.Lib.ValueIdx

noncomputable section

open scoped BigOperators

namespace Cert.Spec

open Idealize.ShloMosaic Idealize.ShloMosaic.ValueIdx

/-- A matrix given by its entries. -/
def mat {a b : ℕ} (g : Fin a → Fin b → EReal) : (⟨2, ![a, b]⟩ : Shape).Idx → EReal := fun j => g (j 0) (j 1)

theorem mat_apply {a b : ℕ} (g : Fin a → Fin b → EReal) (p : Fin a) (q : Fin b) : mat g (ix2 p q) = g p q := rfl

/-- Row i of Uᵀ x, multiplied by lam[i]. -/
def scaled (U : (⟨2, ![8192, 8192]⟩ : Shape).Idx → EReal) (x : (⟨2, ![8192, 256]⟩ : Shape).Idx → EReal)
    (lam : (⟨2, ![8192, 1]⟩ : Shape).Idx → EReal) : (⟨2, ![8192, 256]⟩ : Shape).Idx → EReal :=
  mat fun i f => (∑ n : Fin 8192, U (ix2 n i) * x (ix2 n f)) * lam (ix2 i (0 : Fin 1))

/-- U s. -/
def out (U : (⟨2, ![8192, 8192]⟩ : Shape).Idx → EReal) (s : (⟨2, ![8192, 256]⟩ : Shape).Idx → EReal) :
    (⟨2, ![8192, 256]⟩ : Shape).Idx → EReal :=
  mat fun r f => ∑ i : Fin 8192, U (ix2 r i) * s (ix2 i f)

end Cert.Spec

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.KI.Value0.lean ====
/-
  Region 0 at the extended reals: what its result array holds once the grid has run.

  Point t = 8·mb + kb adds to the 1024 × 256 accumulator the product of the transposed block (kb, mb) of U with
  block kb of x, starting from zero where kb = 0. Over the extended reals the accumulator after that point is, at
  (p, f), the sum of the first 1024·(kb + 1) terms U[n, 1024·mb + p] · x[n, f]; where kb = 7 that is the whole
  column's sum, which is multiplied by the filter column's entry 1024·mb + p and written back as block mb of the
  result. The eight blocks written back cover the result array.
-/
import proofs.«101562_j5755256177387_1_alg».proof.Proof.KI.R0Defs
import proofs.«101562_j5755256177387_1_alg».proof.Proof.Spec
import proofs.«101562_j5755256177387_1_alg».proof.Proof.LibPlainDot
import proofs.«101562_j5755256177387_1_alg».proof.Proof.LibMatrixReads
import proofs.«101562_j5755256177387_1_alg».proof.Proof.LibRunSums
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Value

/-- Each window's block index at point t, on both axes: t mod 8 and t div 8 where the index map reads them. -/
theorem idx0 : ∀ t : Fin grid0.N, win0_0.index t 0 = t.val % 8 ∧ win0_0.index t 1 = t.val / 8 := by decide +kernel
theorem idx1 : ∀ t : Fin grid0.N, win0_1.index t 0 = t.val % 8 ∧ win0_1.index t 1 = 0 := by decide +kernel
theorem idx2 : ∀ t : Fin grid0.N, win0_2.index t 0 = t.val / 8 ∧ win0_2.index t 1 = 0 := by decide +kernel
theorem idx3 : ∀ t : Fin grid0.N, win0_3.index t 0 = t.val / 8 ∧ win0_3.index t 1 = 0 := by decide +kernel

/-- The three input arrays at their literal types. -/
abbrev Uarr (c : Dev nD) : S8192x8192.Idx → EReal := V c main_arg1
abbrev Xarr (c : Dev nD) : S8192x256.Idx → EReal := V c main_arg0
abbrev Larr (c : Dev nD) : S8192x1.Idx → EReal := V c main_v11

/-- A block's entry sits in its array at block index × block size + the coordinate inside, on each axis. -/
theorem ublk_apply (c : Dev nD) (t : Fin cfg0.N) (p q : Fin 1024)
    (h0 : 1024 * (t.val % 8) + p.val < 8192) (h1 : 1024 * (t.val / 8) + q.val < 8192) :
    ublk V c t (ix2 p q) = Uarr V c (ix2 ⟨1024 * (t.val % 8) + p.val, h0⟩ ⟨1024 * (t.val / 8) + q.val, h1⟩) := by
  show iblk V c 0 t (ix2 p q) = _
  unfold iblk
  rw [View.read_apply]
  show V c main_arg1 _ = V c main_arg1 _
  congr 1
  funext a
  apply Fin.ext
  match a with
  | ⟨0, _⟩ => show win0_0.index t 0 * 1024 + 1 * p.val = 1024 * (t.val % 8) + p.val; rw [(idx0 t).1]; omega
  | ⟨1, _⟩ => show win0_0.index t 1 * 1024 + 1 * q.val = 1024 * (t.val / 8) + q.val; rw [(idx0 t).2]; omega

/-- The three arithmetic steps of the body read at an index: the zero block, the accumulator plus the transposed
    block's product, the accumulator times the broadcast column. -/
theorem pay1_apply (p : Fin 1024) (f : Fin 256) : k0_pay1 (F := Ideal) (ix2 p f) = 0 := by
  unfold k0_pay1
  rw [shapeCast_self]
  exact Ideal.ofBits_zero_f32

theorem pay2_apply (u : Vec Ideal S1024x1024 .f32) (x : Vec Ideal S1024x256 .f32) (a : Vec Ideal S1024x256 .f32)
    (p : Fin 1024) (f : Fin 256) :
    k0_pay2 u x a (ix2 p f) = a (ix2 p f) + ∑ k : Fin 1024, u (ix2 k p) * x (ix2 k f) := by
  unfold k0_pay2
  rw [shapeCast_self]
  refine (addf_apply _ _ _).trans ?_
  congr 1
  refine (Idealize.ShloMosaic.PlainDot.matmul_zero_apply 1024 1024 256 none _ _ p f).trans ?_
  refine Finset.sum_congr rfl fun k _ => ?_
  congr 1
  exact Idealize.ShloMosaic.MatrixReads.transpose2_apply 1024 1024 _ _ p k

theorem pay3_apply (a : Vec Ideal S1024x256 .f32) (l : Vec Ideal S1024x1 .f32) (p : Fin 1024) (f : Fin 256) :
    k0_pay3 a l (ix2 p f) = a (ix2 p f) * l (ix2 p (0 : Fin 1)) := by
  unfold k0_pay3
  rw [shapeCast_self]
  refine (mulf_apply _ _ _).trans ?_
  congr 1
  refine broadcastTo_apply l _ (ix2 p f) (ix2 p (0 : Fin 1)) fun ax => ?_
  match ax with
  | ⟨0, _⟩ =>
    show p.val = if (1024 : ℕ) = 1 then 0 else p.val
    rw [if_neg (by decide)]
  | ⟨1, _⟩ =>
    show (0 : ℕ) = if (1 : ℕ) = 1 then 0 else f.val
    rw [if_pos rfl]

theorem xblk_apply (c : Dev nD) (t : Fin cfg0.N) (p : Fin 1024) (f : Fin 256)
    (h0 : 1024 * (t.val % 8) + p.val < 8192) :
    xblk V c t (ix2 p f) = Xarr V c (ix2 ⟨1024 * (t.val % 8) + p.val, h0⟩ f) := by
  show iblk V c 1 t (ix2 p f) = _
  unfold iblk
  rw [View.read_apply]
  show V c main_arg0 _ = V c main_arg0 _
  congr 1
  funext a
  apply Fin.ext
  match a with
  | ⟨0, _⟩ => show win0_1.index t 0 * 1024 + 1 * p.val = 1024 * (t.val % 8) + p.val; rw [(idx1 t).1]; omega
  | ⟨1, _⟩ => show win0_1.index t 1 * 256 + 1 * f.val = f.val; rw [(idx1 t).2]; omega

theorem lblk_apply (c : Dev nD) (t : Fin cfg0.N) (p : Fin 1024) (u : Fin 1)
    (h0 : 1024 * (t.val / 8) + p.val < 8192) :
    lblk V c t (ix2 p u) = Larr V c (ix2 ⟨1024 * (t.val / 8) + p.val, h0⟩ (0 : Fin 1)) := by
  show iblk V c 2 t (ix2 p u) = _
  unfold iblk
  rw [View.read_apply]
  show V c main_v11 _ = V c main_v11 _
  congr 1
  funext a
  apply Fin.ext
  match a with
  | ⟨0, _⟩ => show win0_2.index t 0 * 1024 + 1 * p.val = 1024 * (t.val / 8) + p.val; rw [(idx2 t).1]; omega
  | ⟨1, _⟩ => show win0_2.index t 1 * 1 + 1 * u.val = 0; rw [(idx2 t).2]; omega

/-- Block t of an array shaped like the result, read through the result's window. -/
theorem oblk_apply (c : Dev nD) (G : S8192x256.Idx → EReal) (t : Fin cfg0.N) (p : Fin 1024) (f : Fin 256)
    (h0 : 1024 * (t.val / 8) + p.val < 8192) :
    ((cfg0.win 3).blk t).view.read (Elt Ideal) G (ix2 p f) = G (ix2 ⟨1024 * (t.val / 8) + p.val, h0⟩ f) := by
  rw [View.read_apply]
  show G _ = G _
  congr 1
  funext a
  apply Fin.ext
  match a with
  | ⟨0, _⟩ => show win0_3.index t 0 * 1024 + 1 * p.val = 1024 * (t.val / 8) + p.val; rw [(idx3 t).1]; omega
  | ⟨1, _⟩ => show win0_3.index t 1 * 256 + 1 * f.val = f.val; rw [(idx3 t).2]; omega

/-- U and x read at natural-number positions (zero outside the arrays). -/
def Uat (c : Dev nD) (i j : ℕ) : EReal := if h : i < 8192 ∧ j < 8192 then Uarr V c (ix2 ⟨i, h.1⟩ ⟨j, h.2⟩) else 0
def Xat (c : Dev nD) (i j : ℕ) : EReal := if h : i < 8192 ∧ j < 256 then Xarr V c (ix2 ⟨i, h.1⟩ ⟨j, h.2⟩) else 0

/-- Term n of the sum that entry (i, f) of the transposed product is. -/
def term (c : Dev nD) (i f n : ℕ) : EReal := Uat V c n i * Xat V c n f

/-- The product a point adds, at an index: the point's run of 1024 terms. -/
theorem point_sum (c : Dev nD) (t : Fin cfg0.N) (p : Fin 1024) (f : Fin 256) :
    ∑ k : Fin 1024, ublk V c t (ix2 k p) * xblk V c t (ix2 k f)
      = ∑ r : Fin 1024, term V c (1024 * (t.val / 8) + p.val) f.val (1024 * (t.val % 8) + r.val) := by
  have hN : cfg0.N = 64 := N_0
  have ht := t.isLt
  refine Finset.sum_congr rfl fun k _ => ?_
  have hk := k.isLt
  have hp := p.isLt
  have hf := f.isLt
  have h0 : 1024 * (t.val % 8) + k.val < 8192 := by omega
  have h1 : 1024 * (t.val / 8) + p.val < 8192 := by omega
  rw [ublk_apply V c t k p h0 h1, xblk_apply V c t k f h0]
  unfold term Uat Xat
  rw [dif_pos ⟨h0, h1⟩, dif_pos ⟨h0, hf⟩]

/-- The accumulator after point n, at an index: the first 1024·(n mod 8 + 1) terms. -/
theorem acc_apply (c : Dev nD) (n : ℕ) : ∀ (hn : n < cfg0.N) (p : Fin 1024) (f : Fin 256),
    acc V c n hn (ix2 p f)
      = ∑ k ∈ Finset.range (1024 * (n % 8 + 1)), term V c (1024 * (n / 8) + p.val) f.val k := by
  induction n with
  | zero =>
    intro hn p f
    refine (congrFun (acc_reset V c ⟨0, hn⟩ rfl) (ix2 p f)).trans ?_
    refine (pay2_apply (ublk V c ⟨0, hn⟩) (xblk V c ⟨0, hn⟩) (k0_pay1 (F := Ideal)) p f).trans ?_
    rw [pay1_apply, zero_add, point_sum V c ⟨0, hn⟩ p f]
    exact Cert.RunSums.first_run 1024 (term V c (1024 * (0 / 8) + p.val) f.val)
  | succ n ih =>
    intro hn p f
    by_cases h : (n + 1) % 8 = 0
    · refine (congrFun (acc_reset V c ⟨n + 1, hn⟩ h) (ix2 p f)).trans ?_
      refine (pay2_apply (ublk V c ⟨n + 1, hn⟩) (xblk V c ⟨n + 1, hn⟩) (k0_pay1 (F := Ideal)) p f).trans ?_
      rw [pay1_apply, zero_add, point_sum V c ⟨n + 1, hn⟩ p f]
      show ∑ r : Fin 1024, term V c (1024 * ((n + 1) / 8) + p.val) f.val (1024 * ((n + 1) % 8) + r.val) = _
      rw [h]
      exact Cert.RunSums.first_run 1024 (term V c (1024 * ((n + 1) / 8) + p.val) f.val)
    · refine (congrFun (acc_step V c ⟨n + 1, hn⟩ h) (ix2 p f)).trans ?_
      refine (pay2_apply (ublk V c ⟨n + 1, hn⟩) (xblk V c ⟨n + 1, hn⟩) (acc V c n (Nat.lt_of_succ_lt hn)) p f).trans ?_
      rw [ih (Nat.lt_of_succ_lt hn) p f, point_sum V c ⟨n + 1, hn⟩ p f]
      show _ + ∑ r : Fin 1024, term V c (1024 * ((n + 1) / 8) + p.val) f.val (1024 * ((n + 1) % 8) + r.val) = _
      have e1 : n / 8 = (n + 1) / 8 := by omega
      have e2 : n % 8 + 1 = (n + 1) % 8 := by omega
      rw [e1, e2]
      exact Cert.RunSums.add_next_run 1024 (term V c (1024 * ((n + 1) / 8) + p.val) f.val) ((n + 1) % 8)

/-- The whole column: at a point with n mod 8 = 7 the accumulator holds all 8192 terms. -/
theorem acc_last (c : Dev nD) (t : Fin cfg0.N) (h7 : t.val % 8 = 7) (p : Fin 1024) (f : Fin 256)
    (h1 : 1024 * (t.val / 8) + p.val < 8192) :
    acc V c t.val t.isLt (ix2 p f)
      = ∑ n : Fin 8192, Uarr V c (ix2 n ⟨1024 * (t.val / 8) + p.val, h1⟩) * Xarr V c (ix2 n f) := by
  rw [acc_apply V c t.val t.isLt p f, h7, Cert.RunSums.whole_column]
  refine Finset.sum_congr rfl fun n _ => ?_
  unfold term Uat Xat
  rw [dif_pos ⟨n.isLt, h1⟩, dif_pos ⟨n.isLt, f.isLt⟩]

/-- What a point with n mod 8 = 7 writes back is its block of the scaled transposed product. -/
theorem flushed_eq (c : Dev nD) (t : Fin cfg0.N) (hf : (cfg0.win 3).flush t = true) :
    (dat (F := Ideal) V c).flushed 3 t
      = ((cfg0.win 3).blk t).view.read (Elt Ideal) (Cert.Spec.scaled (V c main_arg1) (V c main_arg0) (V c main_v11)) := by
  have h7 : t.val % 8 = 7 := (flush0_3 t).mp hf
  have hN : cfg0.N = 64 := N_0
  have ht := t.isLt
  show (cfg0.win 3).cut (grid0.coords t) ((dat (F := Ideal) V c).after 3 t) = _
  rw [after_3]
  funext j
  obtain ⟨p, f, rfl⟩ : ∃ (p : Fin 1024) (f : Fin 256), j = ix2 p f := ⟨j 0, j 1, eq_ix2 j⟩
  have hp := p.isLt
  have h1 : 1024 * (t.val / 8) + p.val < 8192 := by omega
  rw [oblk_apply c (Cert.Spec.scaled (V c main_arg1) (V c main_arg0) (V c main_v11)) t p f h1]
  show outAt V c t (ix2 p f) = _
  unfold outAt
  refine (pay3_apply (acc V c t.val t.isLt) (lblk V c t) p f).trans ?_
  rw [acc_last V c t h7 p f h1, lblk_apply V c t p 0 h1]
  rfl

/-- Row r of the result lies in the block written back at point 8·(r / 1024) + 7. -/
theorem cover (c : Dev nD) (i : S8192x256.Idx) :
    ∃ t : Fin cfg0.N, (cfg0.win 3).flush t = true ∧ i ∈ ((cfg0.win 3).blk t).view.set := by
  have hN : cfg0.N = 64 := N_0
  have h0 : (i 0 : Nat) < 8192 := (i 0).isLt
  have h1 : (i 1 : Nat) < 256 := (i 1).isLt
  have hlt : 8 * ((i 0 : Nat) / 1024) + 7 < cfg0.N := by omega
  refine ⟨⟨8 * ((i 0 : Nat) / 1024) + 7, hlt⟩, (flush0_3 _).mpr (by show (8 * ((i 0 : Nat) / 1024) + 7) % 8 = 7; omega), ?_⟩
  show i ∈ ((View.whole main_v12).slice (win0_3.rect ⟨8 * ((i 0 : Nat) / 1024) + 7, hlt⟩)).set
  rw [View.set_slice_whole, Rect.mem_set_unit]
  intro a
  match a with
  | ⟨0, _⟩ =>
    show win0_3.index ⟨8 * ((i 0 : Nat) / 1024) + 7, hlt⟩ 0 * 1024 ≤ (i 0 : Nat)
      ∧ (i 0 : Nat) < win0_3.index ⟨8 * ((i 0 : Nat) / 1024) + 7, hlt⟩ 0 * 1024 + 1024
    rw [(idx3 ⟨8 * ((i 0 : Nat) / 1024) + 7, hlt⟩).1]
    show (8 * ((i 0 : Nat) / 1024) + 7) / 8 * 1024 ≤ _ ∧ _ < (8 * ((i 0 : Nat) / 1024) + 7) / 8 * 1024 + 1024
    omega
  | ⟨1, _⟩ =>
    show win0_3.index ⟨8 * ((i 0 : Nat) / 1024) + 7, hlt⟩ 1 * 256 ≤ (i 1 : Nat)
      ∧ (i 1 : Nat) < win0_3.index ⟨8 * ((i 0 : Nat) / 1024) + 7, hlt⟩ 1 * 256 + 256
    rw [(idx3 ⟨8 * ((i 0 : Nat) / 1024) + 7, hlt⟩).2]
    omega

end Value

/-- After the last grid point the result array is the scaled transposed product of the entry contents of U, x and the filter column. -/
theorem result (c : Dev nD) :
    (dat (F := Ideal) V c).arrAt 3 cfg0.N = Cert.Spec.scaled (V c main_arg1) (V c main_arg0) (V c main_v11) :=
  (dat (F := Ideal) V c).arrAt_eq_of_cover 3 (Cert.Spec.scaled (V c main_arg1) (V c main_arg0) (V c main_v11))
    (Value.flushed_eq V c) (Value.cover c)

end Cert.KernelIdeal.R0
end
-- ==== Proof.KI.Value1.lean ====
/-
  Region 1 at the extended reals: what its result array holds once the grid has run.
-/
import proofs.«101562_j5755256177387_1_alg».proof.Proof.KI.R1Defs
import proofs.«101562_j5755256177387_1_alg».proof.Proof.Spec
import proofs.«101562_j5755256177387_1_alg».proof.Proof.LibPlainDot
import proofs.«101562_j5755256177387_1_alg».proof.Proof.LibRunSums
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The index maps, decided once over the grid: at point t = 8·mb + kb the first operand's block is (mb, kb),
    the second's is (kb, 0), the result's is (mb, 0). -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The two operand arrays at their literal types. -/
abbrev uarr (c : Dev nD) : S8192x8192.Idx → EReal := V c main_arg1
abbrev sarr (c : Dev nD) : S8192x256.Idx → EReal := V c main_v12

/-- Entry (p, q) of the first operand's block at point t is entry (1024·(t/8) + p, 1024·(t%8) + q) of U. -/
theorem ublk_apply (c : Dev nD) (t : Fin cfg1.N) (p q : Fin 1024) (k : S8192x8192.Idx)
    (hk0 : (k 0).val = 1024 * (t.val / 8) + p.val) (hk1 : (k 1).val = 1024 * (t.val % 8) + q.val) :
    ublk V c t (ix2 p q) = uarr V c k := by
  obtain ⟨e0, e1, -, -, -, -⟩ := idx_facts t
  unfold ublk iblk
  rw [View.read_apply]
  show V c main_arg1 _ = V c main_arg1 _
  congr 1
  funext a
  apply Fin.ext
  match a with
  | ⟨0, _⟩ => show win1_0.index t 0 * 1024 + 1 * p.val = (k 0).val; rw [e0, hk0]; omega
  | ⟨1, _⟩ => show win1_0.index t 1 * 1024 + 1 * q.val = (k 1).val; rw [e1, hk1]; omega

/-- Entry (q, f) of the second operand's block at point t is entry (1024·(t%8) + q, f) of s. -/
theorem sblk_apply (c : Dev nD) (t : Fin cfg1.N) (q : Fin 1024) (f : Fin 256) (k : S8192x256.Idx)
    (hk0 : (k 0).val = 1024 * (t.val % 8) + q.val) (hk1 : (k 1).val = f.val) :
    sblk V c t (ix2 q f) = sarr V c k := by
  obtain ⟨-, -, e0, e1, -, -⟩ := idx_facts t
  unfold sblk iblk
  rw [View.read_apply]
  show V c main_v12 _ = V c main_v12 _
  congr 1
  funext a
  apply Fin.ext
  match a with
  | ⟨0, _⟩ => show win1_1.index t 0 * 1024 + 1 * q.val = (k 0).val; rw [e0, hk0]; omega
  | ⟨1, _⟩ => show win1_1.index t 1 * 256 + 1 * f.val = (k 1).val; rw [e1, hk1]; omega

/-- The zero block at an index. -/
theorem pay1_apply (j : S1024x256.Idx) : (k1_pay1 (F := Ideal)) j = 0 := by
  unfold k1_pay1
  refine (congrFun (shapeCast_self _ _) j).trans ?_
  exact Ideal.ofBits_zero_f32

/-- One grid point's arithmetic at an index: the accumulator there plus row p of the left block times column f of the right block. -/
theorem pay2_apply (u : Vec Ideal S1024x1024 .f32) (s : Vec Ideal S1024x256 .f32) (a : Vec Ideal S1024x256 .f32)
    (p : Fin 1024) (f : Fin 256) :
    k1_pay2 u s a (ix2 p f) = a (ix2 p f) + ∑ r : Fin 1024, u (ix2 p r) * s (ix2 r f) := by
  unfold k1_pay2
  refine (congrFun (shapeCast_self _ _) (ix2 p f)).trans ?_
  refine (addf_apply _ _ _).trans ?_
  refine congrArg (a (ix2 p f) + ·) ?_
  refine (Idealize.ShloMosaic.PlainDot.matmul_zero_apply 1024 1024 256 none _ _ p f).trans ?_
  refine Finset.sum_congr rfl fun r _ => ?_
  refine congrArg (u (ix2 p r) * ·) ?_
  exact congrFun (shapeCast_self s _) (ix2 r f)

/-- Term k of the column sum for row r and column f of the result (zero past the column's end). -/
def term (c : Dev nD) (r : Fin 8192) (f : Fin 256) (k : ℕ) : EReal :=
  if h : k < 8192 then uarr V c (ix2 r ⟨k, h⟩) * sarr V c (ix2 ⟨k, h⟩ f) else 0

/-- The product a grid point adds at (p, f) is run number t%8 of row r's column sum, r = 1024·(t/8) + p. -/
theorem point_run (c : Dev nD) (t : Fin cfg1.N) (p : Fin 1024) (f : Fin 256) (r : Fin 8192)
    (hr : r.val = 1024 * (t.val / 8) + p.val) :
    ∑ q : Fin 1024, ublk V c t (ix2 p q) * sblk V c t (ix2 q f)
      = ∑ q : Fin 1024, term V c r f (1024 * (t.val % 8) + q.val) := by
  refine Finset.sum_congr rfl fun q _ => ?_
  have hq := q.isLt
  have hk : 1024 * (t.val % 8) + q.val < 8192 := by omega
  rw [ublk_apply V c t p q (ix2 r ⟨_, hk⟩) hr rfl, sblk_apply V c t q f (ix2 ⟨_, hk⟩ f) rfl rfl]
  unfold term
  rw [dif_pos hk]

/-- Where the accumulator is reset (t%8 = 0) it holds the first run. -/
theorem acc_reset_apply (c : Dev nD) (t : Fin cfg1.N) (h0 : t.val % 8 = 0) (p : Fin 1024) (f : Fin 256) (r : Fin 8192)
    (hr : r.val = 1024 * (t.val / 8) + p.val) :
    acc V c t.val t.isLt (ix2 p f) = ∑ k ∈ Finset.range (1024 * (t.val % 8 + 1)), term V c r f k := by
  refine (congrFun (acc_reset V c t h0) (ix2 p f)).trans ?_
  refine (pay2_apply (ublk V c t) (sblk V c t) (k1_pay1 (F := Ideal)) p f).trans ?_
  rw [pay1_apply, zero_add, point_run V c t p f r hr, h0]
  exact Cert.RunSums.first_run 1024 (term V c r f)

/-- THE INVARIANT: after point n the accumulator at (p, f) holds the first 1024·(n%8 + 1) terms of the column sum of
    row 1024·(n/8) + p — by induction on the point: a reset starts the sum with the first run, every other point adds the next run. -/
theorem acc_apply (c : Dev nD) (n : ℕ) : ∀ (hn : n < cfg1.N) (p : Fin 1024) (f : Fin 256) (r : Fin 8192),
    r.val = 1024 * (n / 8) + p.val →
    acc V c n hn (ix2 p f) = ∑ k ∈ Finset.range (1024 * (n % 8 + 1)), term V c r f k := by
  induction n with
  | zero => intro hn p f r hr; exact acc_reset_apply V c ⟨0, hn⟩ rfl p f r hr
  | succ n ih =>
    intro hn p f r hr
    by_cases h0 : (n + 1) % 8 = 0
    · exact acc_reset_apply V c ⟨n + 1, hn⟩ h0 p f r hr
    · have ih' := ih (Nat.lt_of_succ_lt hn) p f r (by rw [hr]; omega)
      refine (congrFun (acc_step V c ⟨n + 1, hn⟩ h0) (ix2 p f)).trans ?_
      refine (pay2_apply (ublk V c ⟨n + 1, hn⟩) (sblk V c ⟨n + 1, hn⟩) (acc V c n (Nat.lt_of_succ_lt hn)) p f).trans ?_
      rw [ih', point_run V c ⟨n + 1, hn⟩ p f r hr]
      have e : n % 8 + 1 = (n + 1) % 8 := by omega
      rw [e]
      exact Cert.RunSums.add_next_run 1024 (term V c r f) ((n + 1) % 8)

/-- Entry (p, f) of the block written back at point t sits in the result array at (1024·(t/8) + p, f). -/
theorem oblk_emb (t : Fin cfg1.N) (p : Fin 1024) (f : Fin 256) (r : Fin 8192)
    (hr : r.val = 1024 * (t.val / 8) + p.val) :
    ((cfg1.win 2).blk t).view.emb (ix2 p f) = (ix2 r f : S8192x256.Idx) := by
  obtain ⟨-, -, -, -, e0, e1⟩ := idx_facts t
  funext a
  apply Fin.ext
  match a with
  | ⟨0, _⟩ => show win1_2.index t 0 * 1024 + 1 * p.val = r.val; rw [e0, hr]; omega
  | ⟨1, _⟩ => show win1_2.index t 1 * 256 + 1 * f.val = f.val; rw [e1]; omega

/-- WHAT A FLUSHING POINT WRITES BACK (t%8 = 7): its block of U·s — the accumulator there holds all eight runs, the whole column sum. -/
theorem flushed_eq (c : Dev nD) (t : Fin cfg1.N) (hf : (cfg1.win 2).flush t = true) :
    (dat (F := Ideal) V c).flushed 2 t
      = ((cfg1.win 2).blk t).view.read (Elt Ideal) (Cert.Spec.out (V c main_arg1) (V c main_v12)) := by
  have h7 : t.val % 8 = 7 := (flush1_2 t).mp hf
  have hN : cfg1.N = 64 := N_1
  have hlt := t.isLt
  show (cfg1.win 2).cut (grid1.coords t) ((dat (F := Ideal) V c).after 2 t) = _
  rw [after_2]
  funext j
  obtain ⟨p, f, rfl⟩ : ∃ (p : Fin 1024) (f : Fin 256), j = ix2 p f := ⟨j 0, j 1, eq_ix2 j⟩
  have hp := p.isLt
  have hr : 1024 * (t.val / 8) + p.val < 8192 := by omega
  rw [View.read_apply]
  show acc V c t.val t.isLt (ix2 p f) = Cert.Spec.out (uarr V c) (sarr V c) (((cfg1.win 2).blk t).view.emb (ix2 p f))
  rw [oblk_emb t p f ⟨_, hr⟩ rfl, acc_apply V c t.val t.isLt p f ⟨_, hr⟩ rfl, h7]
  unfold Cert.Spec.out
  rw [Cert.Spec.mat_apply]
  show ∑ k ∈ Finset.range 8192, term V c ⟨_, hr⟩ f k = _
  rw [Cert.RunSums.whole_column]
  refine Finset.sum_congr rfl fun k _ => ?_
  unfold term
  rw [dif_pos k.isLt]

/-- An index of the result array is in point t's block iff each coordinate is in the block's range on its axis. -/
theorem mem_blk (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v13).slice (win1_2.rect t)).set ↔ _
  rw [View.set_slice_whole, Rect.mem_set_unit]
  exact Iff.rfl

/-- THE COVER: row r of the result is written back by the last point of its row of blocks, 8·(r/1024) + 7. -/
theorem cover (i : S8192x256.Idx) :
    ∃ t : Fin cfg1.N, (cfg1.win 2).flush t = true ∧ i ∈ ((cfg1.win 2).blk t).view.set := by
  have hN : cfg1.N = 64 := N_1
  have hi0 : (i 0).val < 8192 := (i 0).isLt
  have hi1 : (i 1).val < 256 := (i 1).isLt
  have ht : 8 * ((i 0).val / 1024) + 7 < cfg1.N := by omega
  obtain ⟨-, -, -, -, e0, e1⟩ := idx_facts ⟨8 * ((i 0).val / 1024) + 7, ht⟩
  have e0' : win1_2.index ⟨8 * ((i 0).val / 1024) + 7, ht⟩ (0 : Fin 2) = (i 0).val / 1024 := by rw [e0]; show (8 * ((i 0).val / 1024) + 7) / 8 = _; omega
  refine ⟨⟨8 * ((i 0).val / 1024) + 7, ht⟩, (flush1_2 _).mpr (by show (8 * ((i 0).val / 1024) + 7) % 8 = 7; omega), ?_⟩
  rw [mem_blk]
  intro a
  match a with
  | ⟨0, _⟩ =>
    show win1_2.index ⟨8 * ((i 0).val / 1024) + 7, ht⟩ (0 : Fin 2) * 1024 ≤ (i 0).val ∧ (i 0).val < win1_2.index ⟨8 * ((i 0).val / 1024) + 7, ht⟩ (0 : Fin 2) * 1024 + 1024
    rw [e0']; omega
  | ⟨1, _⟩ =>
    show win1_2.index ⟨8 * ((i 0).val / 1024) + 7, ht⟩ (1 : Fin 2) * 256 ≤ (i 1).val ∧ (i 1).val < win1_2.index ⟨8 * ((i 0).val / 1024) + 7, ht⟩ (1 : Fin 2) * 256 + 256
    rw [e1]; omega

/-- After the last grid point the result array is the product of the entry contents of U and the first region's result. -/
theorem result (c : Dev nD) :
    (dat (F := Ideal) V c).arrAt 2 cfg1.N = Cert.Spec.out (V c main_arg1) (V c main_v12) := by
  exact (dat (F := Ideal) V c).arrAt_eq_of_cover 2 (Cert.Spec.out (V c main_arg1) (V c main_v12)) (flushed_eq V c) fun i => cover i

end Cert.KernelIdeal.R1

end
-- ==== Proof.RefValue.lean ====
/-
  The reference at the extended reals: its result is U (lam ⊙ (Uᵀ x)), the function of Spec.
-/
import proofs.«101562_j5755256177387_1_alg».proof.Proof.Gen.ReferenceIdeal.Run
import proofs.«101562_j5755256177387_1_alg».proof.Proof.Gen.ReferenceIdeal.Read
import proofs.«101562_j5755256177387_1_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The per-row scale, laid out as an 8192 × 1 column: entry (i, 0) is the table entry selected for row i
    (the selection itself — quotient, truncation, clamp, wrap, lookup — is carried as one function of the two
    arrays and never opened). -/
def lamCol (l : (⟨S8192, .f32⟩ : BufTy).Contents (Elt Ideal)) (fp : (⟨S15, .f32⟩ : BufTy).Contents (Elt Ideal)) :
    (⟨2, ![8192, 1]⟩ : Shape).Idx → EReal :=
  Cert.Spec.mat fun i (_ : Fin 1) => val_main_v10 (F := Ideal) l fp (ix1 i)

theorem lamCol_apply (l : (⟨S8192, .f32⟩ : BufTy).Contents (Elt Ideal)) (fp : (⟨S15, .f32⟩ : BufTy).Contents (Elt Ideal))
    (i : Fin 8192) (u : Fin 1) : lamCol l fp (ix2 i u) = val_main_v10 (F := Ideal) l fp (ix1 i) := rfl

/-- The reference's last stage is U (lam ⊙ (Uᵀ x)): at (r, f) it is Σᵢ U[r, i] · (lam[i] · Σₙ Uᵀ[i, n] · x[n, f]),
    and the two spellings differ by the order of one product. -/
theorem result_eq (x : (⟨S8192x256, .f32⟩ : BufTy).Contents (Elt Ideal))
    (U : (⟨S8192x8192, .f32⟩ : BufTy).Contents (Elt Ideal))
    (l : (⟨S8192, .f32⟩ : BufTy).Contents (Elt Ideal)) (fp : (⟨S15, .f32⟩ : BufTy).Contents (Elt Ideal)) :
    val_main_v16 (F := Ideal) x U l fp = Cert.Spec.out U (Cert.Spec.scaled U x (lamCol l fp)) := by
  funext i
  obtain ⟨r, f, rfl⟩ : ∃ (r : Fin 8192) (f : Fin 256), i = ix2 r f := ⟨i 0, i 1, eq_ix2 i⟩
  rw [val_main_v16_apply]
  show _ = ∑ k : Fin 8192, U (ix2 r k) * Cert.Spec.scaled U x (lamCol l fp) (ix2 k f)
  refine Finset.sum_congr rfl fun k _ => ?_
  have e1 : lidx_main_v16 (ix2 r f) k = ix2 r k :=
    funext fun a => Fin.ext (by match a with | ⟨0, _⟩ => rfl | ⟨1, _⟩ => rfl)
  have e2 : ridx_main_v16 (ix2 r f) k = ix2 k f :=
    funext fun a => Fin.ext (by match a with | ⟨0, _⟩ => rfl | ⟨1, _⟩ => rfl)
  have e3 : idx_main_v14 (ix2 k f) = ix2 k (0 : Fin 1) :=
    funext fun a => Fin.ext (by match a with | ⟨0, _⟩ => rfl | ⟨1, _⟩ => rfl)
  have e4 : idx_main_v13 (ix2 k (0 : Fin 1)) = ix1 k :=
    funext fun a => Fin.ext (by match a with | ⟨0, _⟩ => rfl)
  rw [e1, e2, val_main_v15_apply, val_main_v14_apply, val_main_v13_apply, e3, e4, val_main_v12_apply]
  show U (ix2 r k) * (val_main_v10 (F := Ideal) l fp (ix1 k) *
      ∑ n : Fin 8192, val_main_v11 (F := Ideal) U (lidx_main_v12 (ix2 k f) n) * x (ridx_main_v12 (ix2 k f) n)) =
    U (ix2 r k) * ((∑ n : Fin 8192, U (ix2 n k) * x (ix2 n f)) * lamCol l fp (ix2 k (0 : Fin 1)))
  rw [lamCol_apply, mul_comm (val_main_v10 (F := Ideal) l fp (ix1 k))]
  congr 2
  refine Finset.sum_congr rfl fun n _ => ?_
  have e5 : lidx_main_v12 (ix2 k f) n = ix2 k n :=
    funext fun a => Fin.ext (by match a with | ⟨0, _⟩ => rfl | ⟨1, _⟩ => rfl)
  have e6 : ridx_main_v12 (ix2 k f) n = ix2 n f :=
    funext fun a => Fin.ext (by match a with | ⟨0, _⟩ => rfl | ⟨1, _⟩ => rfl)
  have e7 : idx_main_v11 (ix2 k n) = ix2 n k :=
    funext fun a => Fin.ext (by match a with | ⟨0, _⟩ => rfl | ⟨1, _⟩ => rfl)
  rw [e5, e6, val_main_v11_apply, e7]

end Cert.ReferenceIdeal.RefValue

end
-- ==== Proof.KI.HostPrefix.lean ====
/-
  The first region's entry, read back to the launch: the two matrices are still the launch's, and the column
  the region scales by is the reference's per-row table entry laid out as 8192 × 1.
-/
import proofs.«101562_j5755256177387_1_alg».proof.Proof.KI.Vals
import proofs.«101562_j5755256177387_1_alg».proof.Proof.RefValue
import proofs.«101562_j5755256177387_1_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.Run

open Idealize.ShloMosaic Idealize.ShloMosaic.TcCoe Idealize.ShloMosaic.ValueIdx
open Idealize.SL Idealize.SL.Sem Idealize.ShloMosaic.StableHlo
open Cert.KernelIdeal Cert.KernelIdeal.Gen

variable (m : (ℓ : Loc nD τ sig) → Buf (Elt Ideal) ℓ)

/-- No host operation before the first region writes x: it holds its launch contents. -/
theorem V3_arg0 (c : Dev nD) : V3 m c main_arg0 = m ((c.tc : Thread nD τ).loc main_arg0) :=
  (Gen.V3_of m c main_arg0 (by decide)).trans <| (Gen.V2_of m c main_arg0 (by decide)).trans <|
    (Gen.V1_of m c main_arg0 (by decide)).trans rfl

/-- Nor U. -/
theorem V3_arg1 (c : Dev nD) : V3 m c main_arg1 = m ((c.tc : Thread nD τ).loc main_arg1) :=
  (Gen.V3_of m c main_arg1 (by decide)).trans <| (Gen.V2_of m c main_arg1 (by decide)).trans <|
    (Gen.V1_of m c main_arg1 (by decide)).trans rfl

set_option maxHeartbeats 400000 in
/-- The 8192 × 1 array the host operations leave for the first region is the selected table entries as a
    column: the last operation recasts the length-8192 vector of selected entries, so entry (i, u) sits at
    row-major position i · 1 + u = i and reads the vector at i; and the operations that select the entries
    (quotient, truncation, clamp, wrap of negatives, lookup) are, literal by literal, the reference's. -/
theorem V3_lam (c : Dev nD) :
    V3 m c main_v11 = Cert.ReferenceIdeal.RefValue.lamCol (m ((c.tc : Thread nD τ).loc main_arg2))
      (m ((c.tc : Thread nD τ).loc main_arg3)) := by
  show StableHlo.after hostOps0_2 _ (Proc.devRef .tc main_v11) = _
  dsimp only [W2, W1, W0]
  simp only [hostOps0_2, hostOps0_1, hostOps0]
  after_results
  funext j
  obtain ⟨i, u, rfl⟩ : ∃ (i : Fin 8192) (u : Fin 1), j = ix2 i u := ⟨j 0, j 1, eq_ix2 j⟩
  refine (shapeCast_apply (s := S8192) (t := S8192x1) _ shapeCasts_S8192_S8192x1 (ix2 i u) (ix1 i) ?_).trans ?_
  · rw [Shape.rowMajor_val_two, Shape.rowMajor_val_one]
    show i.val = i.val * 1 + u.val
    omega
  · rw [Cert.ReferenceIdeal.RefValue.lamCol_apply]
    unfold Cert.ReferenceIdeal.Read.val_main_v10
    rfl

end Cert.KernelIdeal.Run

end
-- ==== Proof.KI.Result.lean ====
/-
  The idealized kernel program's result on the extended reals: the result array ends at
  U (lam ⊙ (Uᵀ x)), lam the filter column computed from the eigenvalues and the filter table,
  and the arguments end as launched.
-/
import proofs.«101562_j5755256177387_1_alg».proof.Proof.KI.Final
import proofs.«101562_j5755256177387_1_alg».proof.Proof.KI.Value0
import proofs.«101562_j5755256177387_1_alg».proof.Proof.KI.Value1
import proofs.«101562_j5755256177387_1_alg».proof.Proof.KI.HostPrefix

set_option maxRecDepth 16384

noncomputable section

namespace Cert.KernelIdeal.Run

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The program's result as a function of the launch contents. -/
def G (c : Dev nD) : Buf (Elt Ideal) ((c.tc : Thread nD τ).loc main_v13) :=
  Cert.Spec.out (m ((c.tc : Thread nD τ).loc main_arg1))
    (Cert.Spec.scaled (m ((c.tc : Thread nD τ).loc main_arg1)) (m ((c.tc : Thread nD τ).loc main_arg0))
      (Cert.ReferenceIdeal.RefValue.lamCol (m ((c.tc : Thread nD τ).loc main_arg2)) (m ((c.tc : Thread nD τ).loc main_arg3))))

/-- The first region's result when the second region is entered: the scaled transposed product of the launch contents. -/
theorem V4_v12 (c : Dev nD) : V4 m c main_v12
    = Cert.Spec.scaled (m ((c.tc : Thread nD τ).loc main_arg1)) (m ((c.tc : Thread nD τ).loc main_arg0))
        (Cert.ReferenceIdeal.RefValue.lamCol (m ((c.tc : Thread nD τ).loc main_arg2)) (m ((c.tc : Thread nD τ).loc main_arg3))) := by
  refine (W4_arr m c 3).trans ((R0.result (V3 m) c).trans ?_)
  rw [V3_lam m c, show V3 m c main_arg1 = m ((c.tc : Thread nD τ).loc main_arg1) from W3_of m c main_arg1 (by decide) (by decide) (by decide),
    show V3 m c main_arg0 = m ((c.tc : Thread nD τ).loc main_arg0) from W3_of m c main_arg0 (by decide) (by decide) (by decide)]

/-- The result array after the run. -/
theorem W5_v13 (c : Dev nD) : W5 m c (Proc.devRef .tc main_v13) = G m c := by
  refine (W5_arr m c 2).trans ((R1.result (V4 m) c).trans ?_)
  rw [V4_v12 m c, show V4 m c main_arg1 = m ((c.tc : Thread nD τ).loc main_arg1) from W4_arg1 m c]
  rfl

/-- Every execution ends with the result array at G of the launch contents and the arguments as launched. -/
theorem value : θ_run defs (onTc (τ := τ) (main (F := Ideal))) ⟨m, fun _ => 0, ρ⟩ (fun r => ∀ c : Dev nD,
      r.2.mem ((c.tc : Thread nD τ).loc main_v13) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v13 (by decide))).trans (W5_v13 m c),
     (h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c)⟩) (run m ρ)

end Cert.KernelIdeal.Run

end
-- ==== Proof.lean ====
/-
  The certificate: SpectralGCN's hot path  out = U · diag(lam) · (Uᵀ x),  lam[i] = filter[bin(lambda[i])].

  The kernel program computes lam on the host exactly as the reference does (a division by the single-precision 1/7,
  a conversion to an integer, a clamp to 0..14 and a table lookup), then runs two tiled matrix products on an
  8 × 8 grid of 1024-wide tiles, each accumulating over its second grid axis in a scratch buffer carried from
  point to point: the first forms (Uᵀ x)[i, f] block by block and, when the reduction for a block of rows is
  complete, multiplies row i by lam[i]; the second forms U times that. The reference computes the same three
  factors with two whole matrix products.

  On the extended reals a change of float format is the identity, a matrix product into zeros is the plain sum
  of products, and addition is commutative and associative, so a sum taken in eight runs of 1024 terms is the
  whole sum, and lam[i]·s = s·lam[i]. No finiteness is needed: the precondition is never opened.

  Frames: each program runs to the end, faults nowhere and leaves its arguments as launched. For the kernel
  programs this is the run of their five items (three stretches of host operations, two regions), each region
  discharged by its body's behaviour in the three cases of its two conditionals (first, middle and last step of
  the reduction); for the reference it is its run with the result dropped.
-/
import proofs.«101562_j5755256177387_1_alg».proof.Defs
import proofs.«101562_j5755256177387_1_alg».proof.Proof.K.Final
import proofs.«101562_j5755256177387_1_alg».proof.Proof.KI.Result
import proofs.«101562_j5755256177387_1_alg».proof.Proof.RefValue
import proofs.«101562_j5755256177387_1_alg».proof.Proof.Gen.Pre_finite_inputs

noncomputable section

namespace Cert.Proof

open Idealize.ShloMosaic Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at one function of arguments that agree. -/
theorem algebraic : Cert.algebraic_KernelIdeal_ReferenceIdeal := by
  intro m ρ m' ρ' _ hagree
  refine ⟨fun c => Cert.KernelIdeal.Run.G m c, Cert.KernelIdeal.Run.value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1]
  exact (Cert.ReferenceIdeal.Read.val_main_v16_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
